-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S2000x64 : Shape := ⟨2, ![2000, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S2000x1 : Shape := ⟨2, ![2000, 1]⟩
abbrev S2000 : Shape := ⟨1, ![2000]⟩

abbrev nBuf : Space → Nat
  | .hbm => 87
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x64, .f32⟩
  | .hbm, ⟨11, _⟩ => ⟨S_, .f32⟩
  | .hbm, ⟨12, _⟩ => ⟨S50000, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S_, .f32⟩
  | .hbm, ⟨22, _⟩ => ⟨S800000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S800000, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S800000x64, .f32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S50000x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S50000x64, .f32⟩
  | .hbm, ⟨76, _⟩ => ⟨S1x64, .f32⟩
  | .hbm, ⟨77, _⟩ => ⟨S1x64, .f32⟩
  | .hbm, ⟨78, _⟩ => ⟨S_, .f32⟩
  | .hbm, ⟨79, _⟩ => ⟨S1x64, .f32⟩
  | .hbm, ⟨80, _⟩ => ⟨S1x64, .f32⟩
  | .hbm, ⟨81, _⟩ => ⟨S_, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S1x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_c_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55_0 : Ref sig .tc := ⟨.hbm, 75, rfl⟩
abbrev main_v55_1 : Ref sig .tc := ⟨.hbm, 76, rfl⟩
abbrev main_v55_2 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S1x64_S1x64 : S1x64.ShapeCasts S1x64
  broadcasts_S2000x1_S2000x64 : S2000x1.Broadcasts S2000x64
  broadcasts_S1x64_S2000x64 : S1x64.Broadcasts S2000x64
  reduces_S2000x64_S64 : S2000x64.Reduces [0] S64
  bcast_S_S1x64 : S_.BroadcastsInDim S1x64 (![] : Fin 0 → Fin S1x64.rank)
  reduces_S2000x64_S2000 : S2000x64.Reduces [1] S2000
  shapeCasts_S2000_S2000x1 : S2000.ShapeCasts S2000x1
  dot_S2000x64_S64x64_S2000x64_1_0_0_1_n_n_wf : DotDims.WF S2000x64 S64x64 S2000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55_0) S2000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v55_1) S1x64.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55_2) S1x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v55_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x64, .f32⟩
  | .hbm, ⟨11, _⟩ => ⟨S_, .f32⟩
  | .hbm, ⟨12, _⟩ => ⟨S50000, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S_, .f32⟩
  | .hbm, ⟨22, _⟩ => ⟨S800000, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x64, .f32⟩
  | .hbm, ⟨28, _⟩ => ⟨S50000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S800000x1, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S800000x64, .f32⟩
  | .hbm, ⟨59, _⟩ => ⟨S800000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S50000x64, .f32⟩
  | .hbm, ⟨69, _⟩ => ⟨S1x64, .f32⟩
  | .hbm, ⟨70, _⟩ => ⟨S50000x64, .f32⟩
  | .hbm, ⟨71, _⟩ => ⟨S50000x64, .f32⟩
  | .hbm, ⟨72, _⟩ => ⟨S_, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S1x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64, .f32⟩
  | .hbm, ⟨93, _⟩ => ⟨S1x64, .f32⟩
  | .hbm, ⟨94, _⟩ => ⟨S50000x64, .f32⟩
  | .hbm, ⟨95, _⟩ => ⟨S50000x64, .f32⟩
  | .hbm, ⟨96, _⟩ => ⟨S1x64, .f32⟩
  | .hbm, ⟨97, _⟩ => ⟨S50000x64, .f32⟩
  | .hbm, ⟨98, _⟩ => ⟨S50000x64, .f32⟩
  | .hbm, ⟨99, _⟩ => ⟨S1x64, .f32⟩
  | .hbm, ⟨100, _⟩ => ⟨S50000x64, .f32⟩
  | .hbm, ⟨101, _⟩ => ⟨S50000x64, .f32⟩
  | .hbm, ⟨102, _⟩ => ⟨S_, .f32⟩
  | .hbm, ⟨103, _⟩ => ⟨S50000x64, .f32⟩
  | .hbm, ⟨104, _⟩ => ⟨S50000x64, .f32⟩
  | .hbm, ⟨105, _⟩ => ⟨S50000x64, .f32⟩
  | .hbm, ⟨106, _⟩ => ⟨S_, .f32⟩
  | .hbm, ⟨107, _⟩ => ⟨S50000, .f32⟩
  | .hbm, ⟨108, _⟩ => ⟨S50000x1, .f32⟩
  | .hbm, ⟨109, _⟩ => ⟨S50000x1, .f32⟩
  | .hbm, ⟨110, _⟩ => ⟨S_, .f32⟩
  | .hbm, ⟨111, _⟩ => ⟨S50000x1, .f32⟩
  | .hbm, ⟨112, _⟩ => ⟨S50000x1, .f32⟩
  | .hbm, ⟨113, _⟩ => ⟨S50000x64, .f32⟩
  | .hbm, ⟨114, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_call0_cst : Ref sig .tc := ⟨.hbm, 102, rfl⟩
abbrev main_call0_v0 : Ref sig .tc := ⟨.hbm, 103, rfl⟩
abbrev main_v79 : Ref sig .tc := ⟨.hbm, 104, rfl⟩
abbrev main_v80 : Ref sig .tc := ⟨.hbm, 105, rfl⟩
abbrev main_cst_15 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_16 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S800000x1_S800000x64_0_1 : S800000x1.BroadcastsInDim S800000x64 (![0, 1] : Fin 2 → Fin S800000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S50000x64 : S_.BroadcastsInDim S50000x64 (![] : Fin 0 → Fin S50000x64.rank)
  reducesTo_S50000x64_S50000_d1 : S50000x64.ReducesTo [1] S50000
  bcast_S_S50000x1 : S_.BroadcastsInDim S50000x1 (![] : Fin 0 → Fin S50000x1.rank)
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KHost.lean ====
/-
  The host glue of the kernel's program, as functions of the arrays it reads, and what each buffer holds at the
  boundaries between the three regions.

  Between the regions the program slices the two rows of the edge table, adds 50000 to a negative index word, counts
  the edges that point at each node (plus one), takes inverse square roots, gathers and multiplies them along the edges,
  scales the gathered product rows, sums them per target node, and, after the second region, divides the two column
  accumulators by the row count and subtracts the squared mean.
-/
import proofs.«133745_j34007551050423_1_alg».proof.Proof.Gen.KernelIdeal.Frame
import Idealize.ShloMosaic.Lib.StableHlo.Run

set_option maxRecDepth 16384

noncomputable section

namespace Cert.KernelIdeal.HostV

open Idealize.ShloMosaic Idealize.ShloMosaic.TcCoe Idealize.SL.Sem Idealize.ShloMosaic.StableHlo
open Cert.KernelIdeal Cert.KernelIdeal.Gen

variable {F : FTy → Type} [FloatOps F]

/-! ## The stages -/

/-- Row 0 of the edge table (the source words) as a flat vector. -/
def src (a1 : (⟨S2x800000, .i32⟩ : BufTy).Contents (Elt F)) : (⟨S800000, .i32⟩ : BufTy).Contents (Elt F) :=
  shapeCast S800000 (extractStridedSlice S1x800000 ![0, 0] a1 slices_S2x800000_S1x800000_0_0) shapeCasts_S1x800000_S800000
/-- Row 1 of the edge table (the target words) as a flat vector. -/
def dst (a1 : (⟨S2x800000, .i32⟩ : BufTy).Contents (Elt F)) : (⟨S800000, .i32⟩ : BufTy).Contents (Elt F) :=
  shapeCast S800000 (extractStridedSlice S1x800000 ![1, 0] a1 slices_S2x800000_S1x800000_1_0) shapeCasts_S1x800000_S800000
/-- Index words with 50000 added to the negative ones, as a one-column table. -/
def nrm (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
/-- The degree: the number of edges that point at the node, counted from zero, plus one. -/
def deg (v3 : (⟨S800000, .i32⟩ : BufTy).Contents (Elt F)) : (⟨S50000, .f32⟩ : BufTy).Contents (Elt F) :=
  addf (Host.scatterAdd scatter_S50000_S800000x1_S800000_n_0_0_1
      (broadcastInDim S50000 ![] bcast_S_S50000 (constant S_ .f32 0x00000000#32)) (nrm v3)
      (broadcastInDim S800000 ![] bcast_S_S800000 (constant S_ .f32 0x3F800000#32)))
    (broadcastInDim S50000 ![] bcast_S_S50000 (constant S_ .f32 0x3F800000#32))
/-- The inverse square root of the degree. -/
def dinv (v3 : (⟨S800000, .i32⟩ : BufTy).Contents (Elt F)) : (⟨S50000, .f32⟩ : BufTy).Contents (Elt F) := Host.rsqrt (deg v3)
/-- Its square, as a column. -/
def d2 (v3 : (⟨S800000, .i32⟩ : BufTy).Contents (Elt F)) : (⟨S50000x1, .f32⟩ : BufTy).Contents (Elt F) :=
  shapeCast S50000x1 (mulf (dinv v3) (dinv v3)) shapeCasts_S50000_S50000x1
/-- The edges' contributions: the source's product row scaled by the two inverse root degrees. -/
def contrib (h : (⟨S50000x64, .f32⟩ : BufTy).Contents (Elt F)) (v1 v3 : (⟨S800000, .i32⟩ : BufTy).Contents (Elt F)) : (⟨S800000x64, .f32⟩ : BufTy).Contents (Elt F) :=
  mulf (broadcastInDim S800000x64 ![0, 1] bcast_S800000x1_S800000x64_0_1
      (broadcastInDim S800000x1 ![0] bcast_S800000_S800000x1_0
        (mulf (Host.gather gather_S50000_S800000x1_S800000_n_0_n_n_0_1_1 (dinv v3) (nrm v1))
          (Host.gather gather_S50000_S800000x1_S800000_n_0_n_n_0_1_1 (dinv v3) (nrm v3)))))
    (Host.gather gather_S50000x64_S800000x1_S800000x64_1_0_n_n_0_1_164 h (nrm v1))
/-- The contributions summed per target node, from zero. -/
def agg (h : (⟨S50000x64, .f32⟩ : BufTy).Contents (Elt F)) (v1 v3 : (⟨S800000, .i32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (nrm v3) (contrib h v1 v3)
/-- A length-64 vector as a one-row matrix. -/
def row (v : (⟨S64, .f32⟩ : BufTy).Contents (Elt F)) : (⟨S1x64, .f32⟩ : BufTy).Contents (Elt F) := shapeCast S1x64 v shapeCasts_S64_S1x64
/-- A column accumulator over the row count. -/
def mean (s : (⟨S1x64, .f32⟩ : BufTy).Contents (Elt F)) : (⟨S1x64, .f32⟩ : BufTy).Contents (Elt F) :=
  Host.divf s (broadcastInDim S1x64 ![] bcast_S_S1x64 (constant S_ .f32 0x47435000#32))
/-- The mean of the squares less the squared mean. -/
def var (s ss : (⟨S1x64, .f32⟩ : BufTy).Contents (Elt F)) : (⟨S1x64, .f32⟩ : BufTy).Contents (Elt F) := subf (mean ss) (mulf (mean s) (mean s))

/-! ## The buffers at the boundaries -/

variable (m : (ℓ : Loc nD τ sig) → Buf (Elt F) ℓ) (ρ : Dev nD → PrngReg) (c : Dev nD)

theorem W1_v1 : W1 m ρ c (Proc.devRef .tc main_v1) = src (m ((c : Thread nD τ).loc main_arg1)) := by
  show StableHlo.after hostOps0 _ _ = _
  dsimp only [hostOps0]; after_results; rfl
theorem W1_v3 : W1 m ρ c (Proc.devRef .tc main_v3) = dst (m ((c : Thread nD τ).loc main_arg1)) := by
  show StableHlo.after hostOps0 _ _ = _
  dsimp only [hostOps0]; after_results; rfl
theorem W1_arg (b : Ref sig .tc) (hb : b = main_arg0 ∨ b = main_arg2 ∨ b = main_arg3 ∨ b = main_arg4 ∨ b = main_arg5) :
    W1 m ρ c (Proc.devRef .tc b) = m ((c : Thread nD τ).loc b) := by
  show StableHlo.after hostOps0 _ _ = _
  rcases hb with rfl | rfl | rfl | rfl | rfl <;> (dsimp only [hostOps0]; after_results)

/-! ### After the first region -/

theorem W2_v4 : W2 m ρ c (Proc.devRef .tc main_v4) = (dat0 (V1 m ρ) c).arrAt 2 cfg0.N := W2_arr m ρ c 2
theorem W2_v1 : W2 m ρ c (Proc.devRef .tc main_v1) = src (m ((c : Thread nD τ).loc main_arg1)) :=
  (W2_of_ne m ρ c main_v1 (by decide)).trans (W1_v1 m ρ c)
theorem W2_v3 : W2 m ρ c (Proc.devRef .tc main_v3) = dst (m ((c : Thread nD τ).loc main_arg1)) :=
  (W2_of_ne m ρ c main_v3 (by decide)).trans (W1_v3 m ρ c)
theorem W2_arg3 : W2 m ρ c (Proc.devRef .tc main_arg3) = m ((c : Thread nD τ).loc main_arg3) :=
  (W2_of_ne m ρ c main_arg3 (by decide)).trans (W1_arg m ρ c main_arg3 (by simp))
theorem W2_arg4 : W2 m ρ c (Proc.devRef .tc main_arg4) = m ((c : Thread nD τ).loc main_arg4) :=
  (W2_of_ne m ρ c main_arg4 (by decide)).trans (W1_arg m ρ c main_arg4 (by simp))
theorem W2_arg5 : W2 m ρ c (Proc.devRef .tc main_arg5) = m ((c : Thread nD τ).loc main_arg5) :=
  (W2_of_ne m ρ c main_arg5 (by decide)).trans (W1_arg m ρ c main_arg5 (by simp))

/-! ### Before the second region -/

set_option maxHeartbeats 4000000 in
theorem W3_v4 : W3 m ρ c (Proc.devRef .tc main_v4) = W2 m ρ c (Proc.devRef .tc main_v4) := by
  show StableHlo.after hostOps1 _ _ = _
  dsimp only [hostOps1]; after_results_simp
set_option maxHeartbeats 4000000 in
theorem W3_v51 : W3 m ρ c (Proc.devRef .tc main_v51)
    = agg (W2 m ρ c (Proc.devRef .tc main_v4)) (W2 m ρ c (Proc.devRef .tc main_v1)) (W2 m ρ c (Proc.devRef .tc main_v3)) := by
  show StableHlo.after hostOps1 _ _ = _
  dsimp only [hostOps1]; after_results_simp; rfl
set_option maxHeartbeats 4000000 in
theorem W3_v18 : W3 m ρ c (Proc.devRef .tc main_v18) = d2 (W2 m ρ c (Proc.devRef .tc main_v3)) := by
  show StableHlo.after hostOps1 _ _ = _
  dsimp only [hostOps1]; after_results_simp; rfl
set_option maxHeartbeats 4000000 in
theorem W3_v52 : W3 m ρ c (Proc.devRef .tc main_v52) = row (W2 m ρ c (Proc.devRef .tc main_arg3)) := by
  show StableHlo.after hostOps1 _ _ = _
  dsimp only [hostOps1]; after_results_simp; rfl
set_option maxHeartbeats 4000000 in
theorem W3_v53 : W3 m ρ c (Proc.devRef .tc main_v53) = row (W2 m ρ c (Proc.devRef .tc main_arg4)) := by
  show StableHlo.after hostOps1 _ _ = _
  dsimp only [hostOps1]; after_results_simp; rfl
set_option maxHeartbeats 4000000 in
theorem W3_v54 : W3 m ρ c (Proc.devRef .tc main_v54) = row (W2 m ρ c (Proc.devRef .tc main_arg5)) := by
  show StableHlo.after hostOps1 _ _ = _
  dsimp only [hostOps1]; after_results_simp; rfl

/-! ### After the second region, before the third -/

theorem W4_v55_0 : W4 m ρ c (Proc.devRef .tc main_v55_0) = (dat1 (V3 m ρ) c).arrAt 4 cfg1.N := W4_arr m ρ c 4
theorem W4_v55_1 : W4 m ρ c (Proc.devRef .tc main_v55_1) = (dat1 (V3 m ρ) c).arrAt 5 cfg1.N := W4_arr m ρ c 5
theorem W4_v55_2 : W4 m ρ c (Proc.devRef .tc main_v55_2) = (dat1 (V3 m ρ) c).arrAt 6 cfg1.N := W4_arr m ρ c 6
theorem W4_v53 : W4 m ρ c (Proc.devRef .tc main_v53) = W3 m ρ c (Proc.devRef .tc main_v53) := W4_of_ne m ρ c main_v53 (by decide)
theorem W4_v54 : W4 m ρ c (Proc.devRef .tc main_v54) = W3 m ρ c (Proc.devRef .tc main_v54) := W4_of_ne m ρ c main_v54 (by decide)

theorem W5_v55_0 : W5 m ρ c (Proc.devRef .tc main_v55_0) = W4 m ρ c (Proc.devRef .tc main_v55_0) := by
  show StableHlo.after hostOps2 _ _ = _
  dsimp only [hostOps2]; after_results
theorem W5_v53 : W5 m ρ c (Proc.devRef .tc main_v53) = W4 m ρ c (Proc.devRef .tc main_v53) := by
  show StableHlo.after hostOps2 _ _ = _
  dsimp only [hostOps2]; after_results
theorem W5_v54 : W5 m ρ c (Proc.devRef .tc main_v54) = W4 m ρ c (Proc.devRef .tc main_v54) := by
  show StableHlo.after hostOps2 _ _ = _
  dsimp only [hostOps2]; after_results
theorem W5_v57 : W5 m ρ c (Proc.devRef .tc main_v57) = mean (W4 m ρ c (Proc.devRef .tc main_v55_1)) := by
  show StableHlo.after hostOps2 _ _ = _
  dsimp only [hostOps2]; after_results; rfl
theorem W5_v61 : W5 m ρ c (Proc.devRef .tc main_v61)
    = var (W4 m ρ c (Proc.devRef .tc main_v55_1)) (W4 m ρ c (Proc.devRef .tc main_v55_2)) := by
  show StableHlo.after hostOps2 _ _ = _
  dsimp only [hostOps2]; after_results; rfl

/-! ### After the third region -/

theorem W6_v62 : W6 m ρ c (Proc.devRef .tc main_v62) = (dat2 (V5 m ρ) c).arrAt 5 cfg2.N := W6_arr m ρ c 5

end Cert.KernelIdeal.HostV

end
-- ==== Proof.Spec.lean ====
/-
  The mathematics of the graph-convolution layer, index by index on the extended reals.

  Every array is a function from the indices of a literal shape.  The layer is: a matrix product (hmat);
  a pre-activation (pre) = (product row scaled by the node's inverse degree, plus the aggregated
  neighbour rows) plus the bias; its column sums and column sums of squares; and the closing stage (fin2):
  batch normalisation by a column mean and variance, the positive part, and division of each row by its
  Euclidean length (floored at a small constant).
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev A2 (a b : Nat) : Type := (⟨2, ![a, b]⟩ : Shape).Idx → EReal
/-- A rank-1 array of extended reals. -/
abbrev A1 (a : Nat) : Type := (⟨1, ![a]⟩ : Shape).Idx → EReal

/-- The float word of zero, read at the ideal instance. -/
abbrev Z : EReal := Ideal.ofBits .f32 0x00000000#32
/-- The float word of one. -/
abbrev OneF : EReal := Ideal.ofBits .f32 0x3F800000#32
/-- The float word of 50000, the number of rows. -/
abbrev NRows : EReal := Ideal.ofBits .f32 0x47435000#32
/-- The small constant added to the variance. -/
abbrev E1 : EReal := Ideal.ofBits .f32 0x3727C5AC#32
/-- The floor of a row's length. -/
abbrev E2 : EReal := Ideal.ofBits .f32 0x2B8CBCCC#32

/-- The matrix product: entry (r, c) is the sum over k of x (r, k) · w (k, c). -/
def hmat (x : A2 50000 64) (w : A2 64 64) : A2 50000 64 :=
  fun i => ∑ k : Fin 64, x (ix2 (i 0) k) * w (ix2 k (i 1))

/-- The pre-activation: (h · d2 of the row + agg) + bias of the column. -/
def pre (h agg : A2 50000 64) (d2 : A2 50000 1) (b : A2 1 64) : A2 50000 64 :=
  fun i => (h i * d2 (ix2 (i 0) 0) + agg i) + b (ix2 0 (i 1))

/-- Row 2000 · t + r of the 50000 rows: row r of the t-th block of 2000. -/
def blockRow (t : Fin 25) (r : Fin 2000) : Fin 50000 := ⟨2000 * t.val + r.val, by have := t.isLt; have := r.isLt; omega⟩

/-- The column sums as 25 blocks of 2000 rows accumulate them: the zero word plus, block after block, the
    block's own column sum. -/
def colsumB (p : A2 50000 64) : A2 1 64 :=
  fun j => Z + ∑ t : Fin 25, ∑ r : Fin 2000, p (ix2 (blockRow t r) (j 1))

/-- The column sums of squares, accumulated the same way. -/
def colsumsqB (p : A2 50000 64) : A2 1 64 :=
  fun j => Z + ∑ t : Fin 25, ∑ r : Fin 2000, p (ix2 (blockRow t r) (j 1)) * p (ix2 (blockRow t r) (j 1))

/-- The normalised, scaled, shifted and clipped entry (r, c). -/
def act (p : A2 50000 64) (mean var g bt : A2 1 64) (r : Fin 50000) (c : Fin 64) : EReal :=
  max ((((p (ix2 r c) - mean (ix2 0 c)) * Ideal.rsqrt (var (ix2 0 c) + E1)) * g (ix2 0 c)) + bt (ix2 0 c)) Z

/-- The closing stage: each clipped entry over its row's Euclidean length, floored at E2. -/
def fin2 (p : A2 50000 64) (mean var g bt : A2 1 64) : A2 50000 64 :=
  fun i => Ideal.div (act p mean var g bt (i 0) (i 1))
    (max (Ideal.sqrt (∑ c : Fin 64, act p mean var g bt (i 0) c * act p mean var g bt (i 0) c)) E2)

end Cert.Spec

end
-- ==== Proof.KReg0.lean ====
/-
  Region 0 (the matrix product, 25 row blocks of 2000): the array the region leaves is the product of the two
  arrays it reads, entry by entry.
-/
import proofs.«133745_j34007551050423_1_alg».proof.Proof.Gen.KernelIdeal.Frame
import proofs.«133745_j34007551050423_1_alg».proof.Proof.Spec
import Idealize.ShloMosaic.Lib.Pipeline.Value
import Idealize.ShloMosaic.PureOps.Ideal.Laws
set_option maxRecDepth 16384

noncomputable section

open scoped BigOperators

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- The left operand's row is the output's row. -/
theorem lhs_mm_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left operand's column is the contraction position. -/
theorem lhs_mm_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right operand's row is the contraction position. -/
theorem rhs_mm_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- The right operand's column is the output's column. -/
theorem rhs_mm_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The body's payload at an entry: the format changes are the identity on extended reals, and the product into the
    zero accumulator is the sum over the 64 contraction positions of the row's entries times the column's. -/
theorem pay_apply (x0 : Vec Ideal S2000x64 .f32) (x1 : Vec Ideal S64x64 .f32) (j : S2000x64.Idx) :
    k0_pay1 (F := Ideal) x0 x1 j = ∑ k : Fin 64, x0 (ix2 (j 0) k) * x1 (ix2 k (j 1)) := by
  unfold k0_pay1
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx j ((ValueIdx.contrEquiv1 dot_S2000x64_S64x64_S2000x64_1_0_0_1_n_n 64 rfl rfl).symm k) = ix2 (j 0) k := funext fun a => Fin.ext (by
    match a with
    | ⟨0, _⟩ => exact lhs_mm_0 _ _
    | ⟨1, _⟩ => exact (lhs_mm_1 _ _).trans hk)
  have er : dot_S2000x64_S64x64_S2000x64_1_0_0_1_n_n.rhsIdx j ((ValueIdx.contrEquiv1 dot_S2000x64_S64x64_S2000x64_1_0_0_1_n_n 64 rfl rfl).symm k) = ix2 k (j 1) := funext fun a => Fin.ext (by
    match a with
    | ⟨0, _⟩ => exact (rhs_mm_0 _ _).trans hk
    | ⟨1, _⟩ => exact rhs_mm_1 _ _)
  rw [truncf_apply, truncf_apply, el, er]
  rfl

/-- What the body leaves in the output's buffer, entry by entry, whatever the two input buffers hold: the one store
    covers the buffer, and its payload is the product. -/
theorem out_apply (x0 : Vec Ideal S2000x64 .f32) (x1 : Vec Ideal S64x64 .f32) (j : S2000x64.Idx) :
    out0_2 (F := Ideal) x0 x1 j = ∑ k : Fin 64, x0 (ix2 (j 0) k) * x1 (ix2 k (j 1)) := by
  unfold out0_2
  rw [View.canon_unit_zero hz]
  simp only [View.ld_unit_zero (S := S2000x64) hz, View.ld_unit_zero (S := S64x64) hz]
  exact pay_apply x0 x1 j

/-- The three windows' index maps, decided once over the 25 grid points: the two row-block windows sit at block row t,
    column block 0; the weight window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point t is rows 2000 t … 2000 t + 1999 of the first array. -/
theorem blk0_apply (c : Dev nD) (t : Fin cfg0.N) (y : S2000x64.Idx) (i : S50000x64.Idx)
    (h0 : (i 0).val = 2000 * t.val + (y 0).val) (h1 : (i 1).val = (y 1).val) :
    (iblk0 V c 0 t : Vec Ideal S2000x64 .f32) y = (V c main_arg0 : S50000x64.Idx → EReal) i := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * (y 0).val = (i 0).val; omega
  | ⟨1, _⟩ => show win0_0.index t (1 : Fin 2) * 64 + 1 * (y 1).val = (i 1).val; omega

/-- Window 1's block at every point is the whole second array. -/
theorem blk1_apply (c : Dev nD) (t : Fin cfg0.N) (y : S64x64.Idx) (i : S64x64.Idx)
    (h0 : (i 0).val = (y 0).val) (h1 : (i 1).val = (y 1).val) :
    (iblk0 V c 1 t : Vec Ideal S64x64 .f32) y = (V c main_arg2 : S64x64.Idx → EReal) i := by
  obtain ⟨-, -, e0, e1, -⟩ := idx_facts t
  unfold iblk0
  rw [View.read_apply]
  show V c main_arg2 _ = V c main_arg2 _
  refine congrArg (V c main_arg2) ?_
  funext a
  apply Fin.ext
  match a with
  | ⟨0, _⟩ => show win0_1.index t (0 : Fin 2) * 64 + 1 * (y 0).val = (i 0).val; omega
  | ⟨1, _⟩ => show win0_1.index t (1 : Fin 2) * 64 + 1 * (y 1).val = (i 1).val; omega

/-- What point t writes back is block t of the product of the two arrays as the region finds them. -/
theorem flushed_eq (c : Dev nD) (t : Fin cfg0.N) :
    (dat0 (F := Ideal) V c).flushed 2 t
      = ((cfg0.win 2).blk t).view.read (Elt Ideal) (Cert.Spec.hmat (V c main_arg0) (V c main_arg2)) := by
  show (cfg0.win 2).cut (grid0.coords t) ((dat0 V c).after 2 t) = _
  rw [after0_2]
  funext j
  obtain ⟨-, -, -, -, e0, e1⟩ := idx_facts t
  refine (out_apply (iblk0 V c 0 t) (iblk0 V c 1 t) ((cfg0.win 2).xinj (grid0.coords t) j)).trans ?_
  show _ = Cert.Spec.hmat (V c main_arg0) (V c main_arg2) (((cfg0.win 2).blk t).view.emb j)
  unfold Cert.Spec.hmat
  refine Finset.sum_congr rfl fun k _ => ?_
  refine congrArg₂ (· * ·) (blk0_apply V c t _ _ ?_ ?_) (blk1_apply V c t _ _ ?_ ?_)
  · show win0_2.index t (0 : Fin 2) * 2000 + 1 * (j 0).val = 2000 * t.val + (j 0).val; omega
  · rfl
  · rfl
  · show win0_2.index t (1 : Fin 2) * 64 + 1 * (j 1).val = (j 1).val; omega

/-- An index of the array is in point t's block iff each coordinate is in the block's range on its axis. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v4).slice (win0_2.rect t)).set ↔ _
  rw [View.set_slice_whole, Rect.mem_set_unit]
  exact Iff.rfl

/-- Row r lies in the block of point r / 2000, so the 25 blocks cover the array. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 25 := N_0
  have ht : (i 0).val / 2000 < cfg0.N := by show _ < grid0.N; omega
  obtain ⟨-, -, -, -, e0, e1⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ (1 : Fin 2) * 64 ≤ (i 1).val ∧ (i 1).val < win0_2.index ⟨(i 0).val / 2000, ht⟩ (1 : Fin 2) * 64 + 64
    rw [e1]; omega

/-- After the 25 points, output window 2's array is the matrix product of the arrays windows 0 and 1 read. -/
theorem arr2 (c : Dev nD) :
    (dat0 (F := Ideal) V c).arrAt 2 cfg0.N = Cert.Spec.hmat (V c main_arg0) (V c main_arg2) :=
  (dat0 (F := Ideal) V c).arrAt_eq_of_cover 2 (Cert.Spec.hmat (V c main_arg0) (V c main_arg2))
    (fun t _ => flushed_eq V c t) cover

end Cert.KernelIdeal.Reg0

end
-- ==== Proof.KReg1.lean ====
/-
  Region 1 (the combine step, 25 row blocks of 2000, with two accumulators carried from block to block): the
  pre-activation array, and the column sums and column sums of squares the accumulators end holding.
-/
import proofs.«133745_j34007551050423_1_alg».proof.Proof.Gen.KernelIdeal.Frame
import proofs.«133745_j34007551050423_1_alg».proof.Proof.Spec
import Idealize.ShloMosaic.Lib.Pipeline.Value
import Idealize.ShloMosaic.PureOps.Ideal.Laws
set_option maxRecDepth 16384

noncomputable section

open scoped BigOperators

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The pre-activation as a function of the four arrays the region reads. -/
abbrev P (c : Dev nD) : Cert.Spec.A2 50000 64 :=
  Cert.Spec.pre (V c main_v4) (V c main_v51) (V c main_v18) (V c main_v52)

section Pieces
variable {F : FTy → Type} [FloatOps F]

theorem hz : (![0, 0] : Fin 2 → Nat) = fun _ => 0 := funext fun a => by fin_cases a <;> rfl

/-- At the first point the pre-activation block is the one store's payload over the four loaded blocks. -/
theorem outA4 (c : Dev nD) (i : grid1.Coords) (a1 : Memref sig .tc .vmem S2000x64 .f32) (h1 : a1.IsWhole) (a2 : Memref sig .tc .vmem S2000x64 .f32) (h2 : a2.IsWhole) (a3 : Memref sig .tc .vmem S2000x1 .f32) (h3 : a3.IsWhole) (a4 : Memref sig .tc .vmem S1x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc : cond1_0 i) (x0 : Vec F S2000x64 .f32) (x1 : Vec F S2000x64 .f32) (x2 : Vec F S2000x1 .f32) (x3 : Vec F S1x64 .f32) :
    out1_A_4 c i a1 h1 a2 h2 a3 h3 a4 h4 a5 h5 a6 h6 a7 h7 hc x0 x1 x2 x3 = k1_pay3 x0 x1 x2 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  sl_unfold_words
  rw [View.canon_unit_zero hz]
  simp only [View.readAt_eq_ld, h1.read_unread, h2.read_unread, h3.read_unread, h4.read_unread, h6.read_unread, h7.read_unread,
    View.ld_unit_zero (S := S2000x64) hz, View.ld_unit_zero (S := S2000x1) hz, View.ld_unit_zero (S := S1x64) hz]

/-- At the first point the sum accumulator is reset to the zero block, read back, and updated. -/
theorem outA5 (c : Dev nD) (i : grid1.Coords) (a1 : Memref sig .tc .vmem S2000x64 .f32) (h1 : a1.IsWhole) (a2 : Memref sig .tc .vmem S2000x64 .f32) (h2 : a2.IsWhole) (a3 : Memref sig .tc .vmem S2000x1 .f32) (h3 : a3.IsWhole) (a4 : Memref sig .tc .vmem S1x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc : cond1_0 i) (x0 : Vec F S2000x64 .f32) (x1 : Vec F S2000x64 .f32) (x2 : Vec F S2000x1 .f32) (x3 : Vec F S1x64 .f32) :
    out1_A_5 c i a1 h1 a2 h2 a3 h3 a4 h4 a5 h5 a6 h6 a7 h7 hc x0 x1 x2 x3 = k1_pay4 x0 x1 x2 x3 (k1_pay1 (F := F)) := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S2000x64) hz, View.ld_unit_zero (S := S2000x1) hz, View.ld_unit_zero (S := S1x64) hz]

/-- At the first point the sum-of-squares accumulator is reset to the zero block, read back, and updated. -/
theorem outA6 (c : Dev nD) (i : grid1.Coords) (a1 : Memref sig .tc .vmem S2000x64 .f32) (h1 : a1.IsWhole) (a2 : Memref sig .tc .vmem S2000x64 .f32) (h2 : a2.IsWhole) (a3 : Memref sig .tc .vmem S2000x1 .f32) (h3 : a3.IsWhole) (a4 : Memref sig .tc .vmem S1x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc : cond1_0 i) (x0 : Vec F S2000x64 .f32) (x1 : Vec F S2000x64 .f32) (x2 : Vec F S2000x1 .f32) (x3 : Vec F S1x64 .f32) :
    out1_A_6 c i a1 h1 a2 h2 a3 h3 a4 h4 a5 h5 a6 h6 a7 h7 hc x0 x1 x2 x3 = k1_pay5 x0 x1 x2 x3 (k1_pay2 (F := F)) := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x64) hz, View.readCov_unit_zero (S := S1x64) _ hz]
  simp only [View.readAt_eq_ld, h1.read_unread, h2.read_unread, h3.read_unread, h4.read_unread, h6.read_unread, h7.read_unread,
    View.ld_unit_zero (S := S2000x64) hz, View.ld_unit_zero (S := S2000x1) hz, View.ld_unit_zero (S := S1x64) hz]

/-- At a later point the pre-activation block is again the one store's payload. -/
theorem outB4 (c : Dev nD) (i : grid1.Coords) (a1 : Memref sig .tc .vmem S2000x64 .f32) (h1 : a1.IsWhole) (a2 : Memref sig .tc .vmem S2000x64 .f32) (h2 : a2.IsWhole) (a3 : Memref sig .tc .vmem S2000x1 .f32) (h3 : a3.IsWhole) (a4 : Memref sig .tc .vmem S1x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc : ¬cond1_0 i) (x0 : Vec F S2000x64 .f32) (x1 : Vec F S2000x64 .f32) (x2 : Vec F S2000x1 .f32) (x3 : Vec F S1x64 .f32) (xo5 xo6 : Vec F S1x64 .f32) :
    out1_B_4 c i a1 h1 a2 h2 a3 h3 a4 h4 a5 h5 a6 h6 a7 h7 hc x0 x1 x2 x3 xo5 xo6 = k1_pay3 x0 x1 x2 x3 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, h6.read_unread, h7.read_unread,
    View.ld_unit_zero (S := S2000x64) hz, View.ld_unit_zero (S := S2000x1) hz, View.ld_unit_zero (S := S1x64) hz]

/-- At a later point the sum accumulator is updated from what the point before left. -/
theorem outB5 (c : Dev nD) (i : grid1.Coords) (a1 : Memref sig .tc .vmem S2000x64 .f32) (h1 : a1.IsWhole) (a2 : Memref sig .tc .vmem S2000x64 .f32) (h2 : a2.IsWhole) (a3 : Memref sig .tc .vmem S2000x1 .f32) (h3 : a3.IsWhole) (a4 : Memref sig .tc .vmem S1x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc : ¬cond1_0 i) (x0 : Vec F S2000x64 .f32) (x1 : Vec F S2000x64 .f32) (x2 : Vec F S2000x1 .f32) (x3 : Vec F S1x64 .f32) (xo5 xo6 : Vec F S1x64 .f32) :
    out1_B_5 c i a1 h1 a2 h2 a3 h3 a4 h4 a5 h5 a6 h6 a7 h7 hc x0 x1 x2 x3 xo5 xo6 = k1_pay4 x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, h6.read_unread, h7.read_unread,
    View.ld_unit_zero (S := S2000x64) hz, View.ld_unit_zero (S := S2000x1) hz, View.ld_unit_zero (S := S1x64) hz]

/-- At a later point the sum-of-squares accumulator is updated from what the point before left. -/
theorem outB6 (c : Dev nD) (i : grid1.Coords) (a1 : Memref sig .tc .vmem S2000x64 .f32) (h1 : a1.IsWhole) (a2 : Memref sig .tc .vmem S2000x64 .f32) (h2 : a2.IsWhole) (a3 : Memref sig .tc .vmem S2000x1 .f32) (h3 : a3.IsWhole) (a4 : Memref sig .tc .vmem S1x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc : ¬cond1_0 i) (x0 : Vec F S2000x64 .f32) (x1 : Vec F S2000x64 .f32) (x2 : Vec F S2000x1 .f32) (x3 : Vec F S1x64 .f32) (xo5 xo6 : Vec F S1x64 .f32) :
    out1_B_6 c i a1 h1 a2 h2 a3 h3 a4 h4 a5 h5 a6 h6 a7 h7 hc x0 x1 x2 x3 xo5 xo6 = k1_pay5 x0 x1 x2 x3 xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, h6.read_unread, h7.read_unread,
    View.ld_unit_zero (S := S2000x64) hz, View.ld_unit_zero (S := S2000x1) hz, View.ld_unit_zero (S := S1x64) hz]

end Pieces

/-! ## The index maps over the grid -/

/-- The printed index maps, decided over the grid: the three row-blocked inputs and the pre-activation output sit at
    row block `t`, column block 0; the bias row and the two accumulators at block (0, 0) throughout. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The four input blocks at a point, each at its literal type. -/
abbrev hblk (c : Dev nD) (t : Fin cfg1.N) : Vec Ideal S2000x64 .f32 := iblk1 V c 0 t
abbrev ablk (c : Dev nD) (t : Fin cfg1.N) : Vec Ideal S2000x64 .f32 := iblk1 V c 1 t
abbrev dblk (c : Dev nD) (t : Fin cfg1.N) : Vec Ideal S2000x1 .f32 := iblk1 V c 2 t
abbrev bblk (c : Dev nD) (t : Fin cfg1.N) : Vec Ideal S1x64 .f32 := iblk1 V c 3 t

/-- A point of the grid as one of the 25 row blocks. -/
abbrev pt (t : Fin cfg1.N) : Fin 25 := ⟨t.val, lt_of_lt_of_eq t.isLt N_1⟩

theorem hblk_apply (c : Dev nD) (t : Fin cfg1.N) (r : Fin 2000) (q : Fin 64) :
    hblk V c t (ix2 r q) = (V c main_v4 : Cert.Spec.A2 50000 64) (ix2 (Cert.Spec.blockRow (pt t) r) q) := by
  obtain ⟨e0, e1, -⟩ := idx_facts t
  unfold hblk iblk1
  rw [View.read_apply]
  show V c main_v4 _ = V c main_v4 _
  congr 1
  funext a
  apply Fin.ext
  match a with
  | ⟨0, _⟩ => show win1_0.index t (0 : Fin 2) * 2000 + 1 * r.val = 2000 * t.val + r.val; omega
  | ⟨1, _⟩ => show win1_0.index t (1 : Fin 2) * 64 + 1 * q.val = q.val; omega

theorem ablk_apply (c : Dev nD) (t : Fin cfg1.N) (r : Fin 2000) (q : Fin 64) :
    ablk V c t (ix2 r q) = (V c main_v51 : Cert.Spec.A2 50000 64) (ix2 (Cert.Spec.blockRow (pt t) r) q) := by
  obtain ⟨-, -, e0, e1, -⟩ := idx_facts t
  unfold ablk iblk1
  rw [View.read_apply]
  show V c main_v51 _ = V c main_v51 _
  congr 1
  funext a
  apply Fin.ext
  match a with
  | ⟨0, _⟩ => show win1_1.index t (0 : Fin 2) * 2000 + 1 * r.val = 2000 * t.val + r.val; omega
  | ⟨1, _⟩ => show win1_1.index t (1 : Fin 2) * 64 + 1 * q.val = q.val; omega

theorem dblk_apply (c : Dev nD) (t : Fin cfg1.N) (r : Fin 2000) :
    dblk V c t (ix2 r 0) = (V c main_v18 : Cert.Spec.A2 50000 1) (ix2 (Cert.Spec.blockRow (pt t) r) 0) := by
  obtain ⟨-, -, -, -, e0, e1, -⟩ := idx_facts t
  unfold dblk iblk1
  rw [View.read_apply]
  show V c main_v18 _ = V c main_v18 _
  congr 1
  funext a
  apply Fin.ext
  match a with
  | ⟨0, _⟩ => show win1_2.index t (0 : Fin 2) * 2000 + 1 * r.val = 2000 * t.val + r.val; omega
  | ⟨1, _⟩ => show win1_2.index t (1 : Fin 2) * 1 + 1 * 0 = 0; omega

theorem bblk_apply (c : Dev nD) (t : Fin cfg1.N) (q : Fin 64) :
    bblk V c t (ix2 0 q) = (V c main_v52 : Cert.Spec.A2 1 64) (ix2 0 q) := by
  obtain ⟨-, -, -, -, -, -, e0, e1, -⟩ := idx_facts t
  unfold bblk iblk1
  rw [View.read_apply]
  show V c main_v52 _ = V c main_v52 _
  congr 1
  funext a
  apply Fin.ext
  match a with
  | ⟨0, _⟩ => show win1_3.index t (0 : Fin 2) * 1 + 1 * 0 = 0; omega
  | ⟨1, _⟩ => show win1_3.index t (1 : Fin 2) * 64 + 1 * q.val = q.val; omega

/-! ## The body's arithmetic at an index -/

/-- The stored pre-activation block without its identity shape casts. -/
theorem pay3_eq {F : FTy → Type} [FloatOps F] (x0 x1 : Vec F S2000x64 .f32) (x2 : Vec F S2000x1 .f32) (x3 : Vec F S1x64 .f32) :
    k1_pay3 x0 x1 x2 x3 = addf (addf (mulf x0 (broadcastTo S2000x64 x2 broadcasts_S2000x1_S2000x64)) x1)
      (broadcastTo S2000x64 x3 broadcasts_S1x64_S2000x64) := by
  unfold k1_pay3
  simp only [shapeCast_self]

/-- Entry (r, q) of the stored block: (h · d2 of the row + agg) + bias of the column. -/
theorem pay3_apply (x0 x1 : Vec Ideal S2000x64 .f32) (x2 : Vec Ideal S2000x1 .f32) (x3 : Vec Ideal S1x64 .f32)
    (r : Fin 2000) (q : Fin 64) :
    k1_pay3 x0 x1 x2 x3 (ix2 r q) = (x0 (ix2 r q) * x2 (ix2 r 0) + x1 (ix2 r q)) + x3 (ix2 0 q) := by
  rw [pay3_eq]
  show (x0 (ix2 r q) * broadcastTo S2000x64 x2 broadcasts_S2000x1_S2000x64 (ix2 r q) + x1 (ix2 r q))
    + broadcastTo S2000x64 x3 broadcasts_S1x64_S2000x64 (ix2 r q) = _
  rw [broadcastTo_apply x2 broadcasts_S2000x1_S2000x64 (ix2 r q) (ix2 r 0)
      (fun a => by match a with | ⟨0, _⟩ => rfl | ⟨1, _⟩ => rfl),
    broadcastTo_apply x3 broadcasts_S1x64_S2000x64 (ix2 r q) (ix2 0 q)
      (fun a => by match a with | ⟨0, _⟩ => rfl | ⟨1, _⟩ => rfl)]

/-- The block the body stores at point `t`. -/
abbrev pblk (c : Dev nD) (t : Fin cfg1.N) : Vec Ideal S2000x64 .f32 :=
  k1_pay3 (hblk V c t) (ablk V c t) (dblk V c t) (bblk V c t)

/-- It is row block `t` of the pre-activation. -/
theorem pblk_apply (c : Dev nD) (t : Fin cfg1.N) (r : Fin 2000) (q : Fin 64) :
    pblk V c t (ix2 r q) = P V c (ix2 (Cert.Spec.blockRow (pt t) r) q) := by
  unfold pblk
  rw [pay3_apply, hblk_apply, ablk_apply, dblk_apply, bblk_apply]
  rfl

/-! ## Window 4: the pre-activation array -/

/-- At every point, first or later, output 4's buffer is left at the stored block. -/
theorem outs4 (c : Dev nD) (t : Fin cfg1.N) : (outsAt1 V c t.val t.isLt).1 = pblk V c t := by
  by_cases h0 : t.val % 25 = 0
  · rw [outsAt1_A V c t h0]
    dsimp only
    exact outA4 (F := Ideal) c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t) ((hcond1_0 t).mpr h0)
      (iblk1 V c 0 t) (iblk1 V c 1 t) (iblk1 V c 2 t) (iblk1 V c 3 t)
  · rw [outsAt1_B V c t h0]
    dsimp only
    exact outB4 (F := Ideal) c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t) (fun h => h0 ((hcond1_0 t).mp h))
      (iblk1 V c 0 t) (iblk1 V c 1 t) (iblk1 V c 2 t) (iblk1 V c 3 t)
      (outsAt1 V c (t.val - 1) (Nat.lt_of_le_of_lt (Nat.sub_le _ _) t.isLt)).2.1
      (outsAt1 V c (t.val - 1) (Nat.lt_of_le_of_lt (Nat.sub_le _ _) t.isLt)).2.2

/-- What point `t` writes back to window 4's array is row block `t` of the pre-activation. -/
theorem flushed4_eq (c : Dev nD) (t : Fin cfg1.N) :
    (dat1 V c).flushed 4 t = ((cfg1.win 4).blk t).view.read (Elt Ideal) (P V c) := by
  show (cfg1.win 4).cut (grid1.coords t) ((dat1 V c).after 4 t) = _
  rw [after1_4, outs4]
  obtain ⟨-, -, -, -, -, -, -, -, e0, e1, -⟩ := idx_facts t
  funext j
  obtain ⟨r, q, rfl⟩ : ∃ (r : Fin 2000) (q : Fin 64), j = ix2 r q := ⟨j 0, j 1, eq_ix2 j⟩
  refine (pblk_apply V c t r q).trans ?_
  rw [View.read_apply]
  show P V c _ = P V c _
  congr 1
  funext a
  apply Fin.ext
  match a with
  | ⟨0, _⟩ => show 2000 * t.val + r.val = win1_4.index t (0 : Fin 2) * 2000 + 1 * r.val; omega
  | ⟨1, _⟩ => show q.val = win1_4.index t (1 : Fin 2) * 64 + 1 * q.val; omega

/-- An index of the array is in point `t`'s block iff each coordinate is in the block's range on its axis. -/
theorem mem_blk4 (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v55_0).slice (win1_4.rect t)).set ↔ _
  rw [View.set_slice_whole, Rect.mem_set_unit]
  exact Iff.rfl

/-- Row `i 0` lies in row block `i 0 / 2000`: the 25 blocks tile the array. -/
theorem cover4 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 25 := N_1
  let t : Fin cfg1.N := ⟨(i 0).val / 2000, by rw [hN]; omega⟩
  have ht : t.val = (i 0).val / 2000 := rfl
  obtain ⟨-, -, -, -, -, -, -, -, e0, e1, -⟩ := idx_facts t
  refine ⟨t, flush1_4 t, ?_⟩
  rw [mem_blk4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-! ## The two accumulators' arithmetic at an index -/

/-- A column of the sum over the 2000 rows of a block, through the cast that restores the unit row axis. -/
theorem rowsum_apply (src : FVec Ideal S2000x64 .f32) (q : Fin 64) :
    shapeCast S1x64 (multiReduction (F := Ideal) .add [0] S64 src 0x00000000#32 reduces_S2000x64_S64 (.inl rfl) rfl)
      shapeCasts_S64_S1x64 (ix2 0 q) = ∑ r : Fin 2000, src (ix2 r q) := by
  refine (shapeCast_apply _ shapeCasts_S64_S1x64 (ix2 0 q) (ix1 q) ?_).trans ?_
  · rw [Shape.rowMajor_val_one, Shape.rowMajor_val_two]
    show q.val = 0 * 64 + q.val
    omega
  refine (Ideal.multiReduction_add_single src 0x00000000#32 reduces_S2000x64_S64 _ _ (ix1 q)).trans ?_
  show ∑ r : Fin 2000, src (reduces_S2000x64_S64.lift (ix1 q) r) = _
  refine Finset.sum_congr rfl fun r _ => congrArg src ?_
  funext a
  apply Fin.ext
  match a with
  | ⟨0, _⟩ => rfl
  | ⟨1, _⟩ => rfl

/-- The updated sum accumulator at column q: what it held plus the block's column sum. -/
theorem pay4_apply (x0 x1 : Vec Ideal S2000x64 .f32) (x2 : Vec Ideal S2000x1 .f32) (x3 xo : Vec Ideal S1x64 .f32) (q : Fin 64) :
    k1_pay4 x0 x1 x2 x3 xo (ix2 0 q) = xo (ix2 0 q) + ∑ r : Fin 2000, k1_pay3 x0 x1 x2 x3 (ix2 r q) := by
  unfold k1_pay4
  show shapeCast S1x64 xo shapeCasts_S1x64_S1x64 (ix2 0 q)
    + shapeCast S1x64 (multiReduction (F := Ideal) .add [0] S64 (k1_pay3 x0 x1 x2 x3) 0x00000000#32 reduces_S2000x64_S64 (.inl rfl) rfl)
        shapeCasts_S64_S1x64 (ix2 0 q) = _
  exact congrArg₂ (· + ·) (congrFun (shapeCast_self xo shapeCasts_S1x64_S1x64) (ix2 0 q)) (rowsum_apply (k1_pay3 x0 x1 x2 x3) q)

/-- The updated sum-of-squares accumulator at column q: what it held plus the block's column sum of squares. -/
theorem pay5_apply (x0 x1 : Vec Ideal S2000x64 .f32) (x2 : Vec Ideal S2000x1 .f32) (x3 xo : Vec Ideal S1x64 .f32) (q : Fin 64) :
    k1_pay5 x0 x1 x2 x3 xo (ix2 0 q)
      = xo (ix2 0 q) + ∑ r : Fin 2000, k1_pay3 x0 x1 x2 x3 (ix2 r q) * k1_pay3 x0 x1 x2 x3 (ix2 r q) := by
  unfold k1_pay5
  show shapeCast S1x64 xo shapeCasts_S1x64_S1x64 (ix2 0 q)
    + shapeCast S1x64 (multiReduction (F := Ideal) .add [0] S64 (mulf (k1_pay3 x0 x1 x2 x3) (k1_pay3 x0 x1 x2 x3)) 0x00000000#32 reduces_S2000x64_S64 (.inl rfl) rfl)
        shapeCasts_S64_S1x64 (ix2 0 q) = _
  exact congrArg₂ (· + ·) (congrFun (shapeCast_self xo shapeCasts_S1x64_S1x64) (ix2 0 q))
    (rowsum_apply (mulf (k1_pay3 x0 x1 x2 x3) (k1_pay3 x0 x1 x2 x3)) q)

/-- The reset block holds the zero word everywhere. -/
theorem pay1_apply (j : S1x64.Idx) : (k1_pay1 (F := Ideal)) j = Cert.Spec.Z := rfl
theorem pay2_apply (j : S1x64.Idx) : (k1_pay2 (F := Ideal)) j = Cert.Spec.Z := rfl

/-! ## The accumulators: an invariant over the points -/

/-- Block k's column sum of an array, at column q. -/
abbrev bsumF (p : Cert.Spec.A2 50000 64) (q : Fin 64) (t : Fin 25) : EReal :=
  ∑ r : Fin 2000, p (ix2 (Cert.Spec.blockRow t r) q)
/-- The same over a natural number (zero past the last block), for sums over an initial segment of the points. -/
def bsum (p : Cert.Spec.A2 50000 64) (q : Fin 64) (k : ℕ) : EReal :=
  if h : k < 25 then bsumF p q ⟨k, h⟩ else 0
theorem bsum_of_lt (p : Cert.Spec.A2 50000 64) (q : Fin 64) (k : ℕ) (h : k < 25) : bsum p q k = bsumF p q ⟨k, h⟩ := dif_pos h

/-- Block k's column sum of squares, at column q. -/
abbrev bsqF (p : Cert.Spec.A2 50000 64) (q : Fin 64) (t : Fin 25) : EReal :=
  ∑ r : Fin 2000, p (ix2 (Cert.Spec.blockRow t r) q) * p (ix2 (Cert.Spec.blockRow t r) q)
def bsq (p : Cert.Spec.A2 50000 64) (q : Fin 64) (k : ℕ) : EReal :=
  if h : k < 25 then bsqF p q ⟨k, h⟩ else 0
theorem bsq_of_lt (p : Cert.Spec.A2 50000 64) (q : Fin 64) (k : ℕ) (h : k < 25) : bsq p q k = bsqF p q ⟨k, h⟩ := dif_pos h

/-- After point n the accumulator holds, in column q, the zero word plus the first n + 1 blocks' sums. -/
theorem acc5 (c : Dev nD) : ∀ (n : ℕ) (hn : n < cfg1.N) (q : Fin 64),
    (outsAt1 V c n hn).2.1 (ix2 0 q) = Cert.Spec.Z + ∑ k ∈ Finset.range (n + 1), bsum (P V c) q k
  | 0, hn, q => by
    rw [outsAt1_A V c ⟨0, hn⟩ (Nat.zero_mod 25)]
    dsimp only
    refine (congrFun (outA5 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩)
      ((hcond1_0 ⟨0, hn⟩).mpr (Nat.zero_mod 25)) (iblk1 V c 0 ⟨0, hn⟩) (iblk1 V c 1 ⟨0, hn⟩) (iblk1 V c 2 ⟨0, hn⟩) (iblk1 V c 3 ⟨0, hn⟩)) (ix2 0 q)).trans ?_
    refine (pay4_apply (hblk V c ⟨0, hn⟩) (ablk V c ⟨0, hn⟩) (dblk V c ⟨0, hn⟩) (bblk V c ⟨0, hn⟩) _ q).trans ?_
    rw [pay1_apply, Finset.sum_range_one, bsum_of_lt (P V c) q 0 (by omega)]
    refine congrArg (Cert.Spec.Z + ·) (Finset.sum_congr rfl fun r _ => ?_)
    exact pblk_apply V c ⟨0, hn⟩ r q
  | n + 1, hn, q => by
    have hN : cfg1.N = 25 := N_1
    have hB : ¬(⟨n + 1, hn⟩ : Fin cfg1.N).val % 25 = 0 := by dsimp only; omega
    rw [outsAt1_B V c ⟨n + 1, hn⟩ hB]
    dsimp only
    refine (congrFun (outB5 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩)
      (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
      (outsAt1 V c n (Nat.lt_of_succ_lt hn)).2.1 (outsAt1 V c n (Nat.lt_of_succ_lt hn)).2.2) (ix2 0 q)).trans ?_
    refine (pay4_apply (hblk V c ⟨n + 1, hn⟩) (ablk V c ⟨n + 1, hn⟩) (dblk V c ⟨n + 1, hn⟩) (bblk V c ⟨n + 1, hn⟩) _ q).trans ?_
    rw [acc5 c n (Nat.lt_of_succ_lt hn) q, Finset.sum_range_succ _ (n + 1), add_assoc,
      bsum_of_lt (P V c) q (n + 1) (by omega)]
    refine congrArg (fun z => Cert.Spec.Z + (_ + z)) (Finset.sum_congr rfl fun r _ => ?_)
    exact pblk_apply V c ⟨n + 1, hn⟩ r q

/-- After point n the accumulator holds, in column q, the zero word plus the first n + 1 blocks' sums. -/
theorem acc6 (c : Dev nD) : ∀ (n : ℕ) (hn : n < cfg1.N) (q : Fin 64),
    (outsAt1 V c n hn).2.2 (ix2 0 q) = Cert.Spec.Z + ∑ k ∈ Finset.range (n + 1), bsq (P V c) q k
  | 0, hn, q => by
    rw [outsAt1_A V c ⟨0, hn⟩ (Nat.zero_mod 25)]
    dsimp only
    refine (congrFun (outA6 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩)
      ((hcond1_0 ⟨0, hn⟩).mpr (Nat.zero_mod 25)) (iblk1 V c 0 ⟨0, hn⟩) (iblk1 V c 1 ⟨0, hn⟩) (iblk1 V c 2 ⟨0, hn⟩) (iblk1 V c 3 ⟨0, hn⟩)) (ix2 0 q)).trans ?_
    refine (pay5_apply (hblk V c ⟨0, hn⟩) (ablk V c ⟨0, hn⟩) (dblk V c ⟨0, hn⟩) (bblk V c ⟨0, hn⟩) _ q).trans ?_
    rw [pay2_apply, Finset.sum_range_one, bsq_of_lt (P V c) q 0 (by omega)]
    refine congrArg (Cert.Spec.Z + ·) (Finset.sum_congr rfl fun r _ => ?_)
    exact congrArg₂ (· * ·) (pblk_apply V c ⟨0, hn⟩ r q) (pblk_apply V c ⟨0, hn⟩ r q)
  | n + 1, hn, q => by
    have hN : cfg1.N = 25 := N_1
    have hB : ¬(⟨n + 1, hn⟩ : Fin cfg1.N).val % 25 = 0 := by dsimp only; omega
    rw [outsAt1_B V c ⟨n + 1, hn⟩ hB]
    dsimp only
    refine (congrFun (outB6 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩)
      (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
      (outsAt1 V c n (Nat.lt_of_succ_lt hn)).2.1 (outsAt1 V c n (Nat.lt_of_succ_lt hn)).2.2) (ix2 0 q)).trans ?_
    refine (pay5_apply (hblk V c ⟨n + 1, hn⟩) (ablk V c ⟨n + 1, hn⟩) (dblk V c ⟨n + 1, hn⟩) (bblk V c ⟨n + 1, hn⟩) _ q).trans ?_
    rw [acc6 c n (Nat.lt_of_succ_lt hn) q, Finset.sum_range_succ _ (n + 1), add_assoc,
      bsq_of_lt (P V c) q (n + 1) (by omega)]
    refine congrArg (fun z => Cert.Spec.Z + (_ + z)) (Finset.sum_congr rfl fun r _ => ?_)
    exact congrArg₂ (· * ·) (pblk_apply V c ⟨n + 1, hn⟩ r q) (pblk_apply V c ⟨n + 1, hn⟩ r q)

/-- What the last point writes back to window 5's array is the block-by-block sum, read through the one block. -/
theorem flushed5_eq (c : Dev nD) (t : Fin cfg1.N) (hf : (cfg1.win 5).flush t = true) :
    (dat1 V c).flushed 5 t = ((cfg1.win 5).blk t).view.read (Elt Ideal) (Cert.Spec.colsumB (P V c)) := by
  have hN : cfg1.N = 25 := N_1
  have h24 : t.val = 24 := by have := (flush1_5 t).mp hf; have := t.isLt; omega
  show (cfg1.win 5).cut (grid1.coords t) ((dat1 V c).after 5 t) = _
  rw [after1_5]
  obtain ⟨-, -, -, -, -, -, -, -, -, -, e50, e51, e60, e61⟩ := idx_facts t
  funext j
  obtain ⟨z, q, rfl⟩ : ∃ (z : Fin 1) (q : Fin 64), j = ix2 z q := ⟨j 0, j 1, eq_ix2 j⟩
  obtain rfl : z = 0 := Subsingleton.elim _ _
  refine (acc5 V c t.val t.isLt q).trans ?_
  rw [View.read_apply]
  have hidx : ((cfg1.win 5).blk t).view.emb (ix2 0 q) = (ix2 0 q : S1x64.Idx) := by
    funext a
    apply Fin.ext
    match a with
    | ⟨0, _⟩ => show win1_5.index t (0 : Fin 2) * 1 + 1 * 0 = 0; omega
    | ⟨1, _⟩ => show win1_5.index t (1 : Fin 2) * 64 + 1 * q.val = q.val; omega
  rw [hidx, h24]
  show _ = Cert.Spec.Z + ∑ s : Fin 25, bsumF (P V c) q s
  rw [Finset.sum_range (fun k => bsum (P V c) q k)]
  exact congrArg (Cert.Spec.Z + ·) (Finset.sum_congr rfl fun s _ => bsum_of_lt (P V c) q s.val s.isLt)

theorem mem_blk5 (t : Fin cfg1.N) (i : S1x64.Idx) :
    i ∈ ((cfg1.win 5).blk t).view.set ↔ ∀ a : Fin 2, win1_5.index t a * S1x64.size a ≤ (i a).val ∧ (i a).val < win1_5.index t a * S1x64.size a + S1x64.size a := by
  show i ∈ ((View.whole main_v55_1).slice (win1_5.rect t)).set ↔ _
  rw [View.set_slice_whole, Rect.mem_set_unit]
  exact Iff.rfl

/-- The last point's one block is the whole [1, 64] array. -/
theorem cover5 (i : S1x64.Idx) :
    ∃ t : Fin cfg1.N, (cfg1.win 5).flush t = true ∧ i ∈ ((cfg1.win 5).blk t).view.set := by
  have hi0 : (i 0).val < 1 := (i 0).isLt
  have hi1 : (i 1).val < 64 := (i 1).isLt
  have hN : cfg1.N = 25 := N_1
  let t : Fin cfg1.N := ⟨24, by rw [hN]; omega⟩
  obtain ⟨-, -, -, -, -, -, -, -, -, -, e50, e51, e60, e61⟩ := idx_facts t
  refine ⟨t, (flush1_5 t).mpr rfl, ?_⟩
  rw [mem_blk5]
  intro a
  match a with
  | ⟨0, _⟩ => show win1_5.index t (0 : Fin 2) * 1 ≤ (i 0).val ∧ (i 0).val < win1_5.index t (0 : Fin 2) * 1 + 1; omega
  | ⟨1, _⟩ => show win1_5.index t (1 : Fin 2) * 64 ≤ (i 1).val ∧ (i 1).val < win1_5.index t (1 : Fin 2) * 64 + 64; omega

/-- What the last point writes back to window 6's array is the block-by-block sum, read through the one block. -/
theorem flushed6_eq (c : Dev nD) (t : Fin cfg1.N) (hf : (cfg1.win 6).flush t = true) :
    (dat1 V c).flushed 6 t = ((cfg1.win 6).blk t).view.read (Elt Ideal) (Cert.Spec.colsumsqB (P V c)) := by
  have hN : cfg1.N = 25 := N_1
  have h24 : t.val = 24 := by have := (flush1_6 t).mp hf; have := t.isLt; omega
  show (cfg1.win 6).cut (grid1.coords t) ((dat1 V c).after 6 t) = _
  rw [after1_6]
  obtain ⟨-, -, -, -, -, -, -, -, -, -, e50, e51, e60, e61⟩ := idx_facts t
  funext j
  obtain ⟨z, q, rfl⟩ : ∃ (z : Fin 1) (q : Fin 64), j = ix2 z q := ⟨j 0, j 1, eq_ix2 j⟩
  obtain rfl : z = 0 := Subsingleton.elim _ _
  refine (acc6 V c t.val t.isLt q).trans ?_
  rw [View.read_apply]
  have hidx : ((cfg1.win 6).blk t).view.emb (ix2 0 q) = (ix2 0 q : S1x64.Idx) := by
    funext a
    apply Fin.ext
    match a with
    | ⟨0, _⟩ => show win1_6.index t (0 : Fin 2) * 1 + 1 * 0 = 0; omega
    | ⟨1, _⟩ => show win1_6.index t (1 : Fin 2) * 64 + 1 * q.val = q.val; omega
  rw [hidx, h24]
  show _ = Cert.Spec.Z + ∑ s : Fin 25, bsqF (P V c) q s
  rw [Finset.sum_range (fun k => bsq (P V c) q k)]
  exact congrArg (Cert.Spec.Z + ·) (Finset.sum_congr rfl fun s _ => bsq_of_lt (P V c) q s.val s.isLt)

theorem mem_blk6 (t : Fin cfg1.N) (i : S1x64.Idx) :
    i ∈ ((cfg1.win 6).blk t).view.set ↔ ∀ a : Fin 2, win1_6.index t a * S1x64.size a ≤ (i a).val ∧ (i a).val < win1_6.index t a * S1x64.size a + S1x64.size a := by
  show i ∈ ((View.whole main_v55_2).slice (win1_6.rect t)).set ↔ _
  rw [View.set_slice_whole, Rect.mem_set_unit]
  exact Iff.rfl

/-- The last point's one block is the whole [1, 64] array. -/
theorem cover6 (i : S1x64.Idx) :
    ∃ t : Fin cfg1.N, (cfg1.win 6).flush t = true ∧ i ∈ ((cfg1.win 6).blk t).view.set := by
  have hi0 : (i 0).val < 1 := (i 0).isLt
  have hi1 : (i 1).val < 64 := (i 1).isLt
  have hN : cfg1.N = 25 := N_1
  let t : Fin cfg1.N := ⟨24, by rw [hN]; omega⟩
  obtain ⟨-, -, -, -, -, -, -, -, -, -, e50, e51, e60, e61⟩ := idx_facts t
  refine ⟨t, (flush1_6 t).mpr rfl, ?_⟩
  rw [mem_blk6]
  intro a
  match a with
  | ⟨0, _⟩ => show win1_6.index t (0 : Fin 2) * 1 ≤ (i 0).val ∧ (i 0).val < win1_6.index t (0 : Fin 2) * 1 + 1; omega
  | ⟨1, _⟩ => show win1_6.index t (1 : Fin 2) * 64 ≤ (i 1).val ∧ (i 1).val < win1_6.index t (1 : Fin 2) * 64 + 64; omega

/-- After the 25 points, output window 4's array is the pre-activation. -/
theorem arr4 (c : Dev nD) : (dat1 (F := Ideal) V c).arrAt 4 cfg1.N = P V c := by
  exact (dat1 V c).arrAt_eq_of_cover 4 (P V c) (fun t _ => flushed4_eq V c t) cover4

/-- After the 25 points, output window 5's array holds the column sums of the pre-activation, accumulated block by block. -/
theorem arr5 (c : Dev nD) : (dat1 (F := Ideal) V c).arrAt 5 cfg1.N = Cert.Spec.colsumB (P V c) := by
  exact (dat1 V c).arrAt_eq_of_cover 5 (Cert.Spec.colsumB (P V c)) (flushed5_eq V c) cover5

/-- After the 25 points, output window 6's array holds the column sums of its squares, accumulated block by block. -/
theorem arr6 (c : Dev nD) : (dat1 (F := Ideal) V c).arrAt 6 cfg1.N = Cert.Spec.colsumsqB (P V c) := by
  exact (dat1 V c).arrAt_eq_of_cover 6 (Cert.Spec.colsumsqB (P V c)) (flushed6_eq V c) cover6

end Cert.KernelIdeal.Reg1

end
-- ==== Proof.KReg2.lean ====
/-
  Region 2 (the closing stage, 25 row blocks of 2000): the array the region leaves is the normalised, clipped and
  row-length-divided pre-activation, entry by entry.

  First the body's stored value at an entry of a block, as a function of the block of the pre-activation and of the four
  rows (mean, variance, scale, shift); then each written-back block as the block of the closing stage of the whole arrays;
  then the 25 blocks cover the 50000 rows, row r lying in block r / 2000.
-/
import proofs.«133745_j34007551050423_1_alg».proof.Proof.Gen.KernelIdeal.Frame
import proofs.«133745_j34007551050423_1_alg».proof.Proof.Spec
import Idealize.ShloMosaic.Lib.Pipeline.Value
import Idealize.ShloMosaic.Lib.ValueLayout
import Idealize.ShloMosaic.PureOps.Ideal.Laws
set_option maxRecDepth 16384

noncomputable section

open scoped BigOperators

namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's payload at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, 0)`, the vector's entry `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The clipped entry (p, c) of a block of 2000 rows, from the block and the four rows: the entry less the mean, times
    the inverse root of the variance plus E1, times the scale, plus the shift, and the positive part of that. -/
def bact (x0 : FVec Ideal S2000x64 .f32) (x1 x2 x3 x4 : FVec Ideal S1x64 .f32) (p : Fin 2000) (c : Fin 64) : EReal :=
  max ((((x0 (ix2 p c) - x1 (ix2 0 c)) * Ideal.rsqrt (x2 (ix2 0 c) + Cert.Spec.E1)) * x3 (ix2 0 c)) + x4 (ix2 0 c)) Cert.Spec.Z

/-- The clipped block as the body computes it, before the row lengths are taken. -/
def clipV (x0 : FVec Ideal S2000x64 .f32) (x1 x2 x3 x4 : FVec Ideal S1x64 .f32) : FVec Ideal S2000x64 .f32 :=
  maximumf
    (addf
      (mulf
        (mulf (subf x0 (broadcastTo S2000x64 x1 broadcasts_S1x64_S2000x64))
          (broadcastTo S2000x64 (rsqrt (addf x2 (broadcast S1x64 (Scalar.ofBits .f32 0x3727C5AC#32)))) broadcasts_S1x64_S2000x64))
        (broadcastTo S2000x64 x3 broadcasts_S1x64_S2000x64))
      (broadcastTo S2000x64 x4 broadcasts_S1x64_S2000x64))
    (broadcast S2000x64 (Scalar.ofBits .f32 0x00000000#32))

theorem clipV_apply (x0 : FVec Ideal S2000x64 .f32) (x1 x2 x3 x4 : FVec Ideal S1x64 .f32) (p : Fin 2000) (c : Fin 64) :
    clipV x0 x1 x2 x3 x4 (ix2 p c) = bact x0 x1 x2 x3 x4 p c := by
  unfold clipV bact
  simp only [maximumf_apply, addf_apply, mulf_apply, subf_apply, broadcastTo_1b_ab_apply, broadcast_apply]
  rfl

/-- The payload is the clipped block divided, row by row, by the floored root of the row's sum of squares. -/
theorem pay_eq (x0 : FVec Ideal S2000x64 .f32) (x1 x2 x3 x4 : FVec Ideal S1x64 .f32) :
    k2_pay1 (F := Ideal) x0 x1 x2 x3 x4
      = divf (clipV x0 x1 x2 x3 x4)
          (broadcastTo S2000x64
            (maximumf
              (sqrt (shapeCast S2000x1
                (multiReduction (F := Ideal) .add [1] S2000 (mulf (clipV x0 x1 x2 x3 x4) (clipV x0 x1 x2 x3 x4)) 0x00000000#32
                  reduces_S2000x64_S2000 (.inl rfl) rfl)
                shapeCasts_S2000_S2000x1))
              (broadcast S2000x1 (Scalar.ofBits .f32 0x2B8CBCCC#32)))
            broadcasts_S2000x1_S2000x64) := by
  unfold k2_pay1 clipV
  simp only [shapeCast_self]

/-- Row `p`'s sum of squares of the clipped block. -/
theorem rowsum_apply (x0 : FVec Ideal S2000x64 .f32) (x1 x2 x3 x4 : FVec Ideal S1x64 .f32) (p : Fin 2000)
    (hφ : FKind.Formats .f32) (hacc : (0x00000000#32 : BitVec FTy.f32.bits) = FKind.add.neutral .f32 hφ) :
    multiReduction (F := Ideal) .add [1] S2000 (mulf (clipV x0 x1 x2 x3 x4) (clipV x0 x1 x2 x3 x4)) 0x00000000#32
        reduces_S2000x64_S2000 hφ hacc (ix1 p)
      = ∑ c : Fin 64, bact x0 x1 x2 x3 x4 p c * bact x0 x1 x2 x3 x4 p c := by
  refine (Ideal.multiReduction_add_single _ _ reduces_S2000x64_S2000 hφ hacc (ix1 p)).trans ?_
  show ∑ c : Fin 64, mulf (clipV x0 x1 x2 x3 x4) (clipV x0 x1 x2 x3 x4) (reduces_S2000x64_S2000.lift (ix1 p) c) = _
  refine Finset.sum_congr rfl fun c _ => ?_
  have e : reduces_S2000x64_S2000.lift (ix1 p) c = ix2 p c := by
    funext ax
    apply Fin.ext
    match ax with
    | ⟨0, _⟩ => rfl
    | ⟨1, _⟩ => rfl
  rw [e, mulf_apply, clipV_apply]

theorem pay_apply (x0 : FVec Ideal S2000x64 .f32) (x1 x2 x3 x4 : FVec Ideal S1x64 .f32) (p : Fin 2000) (q : Fin 64) :
    k2_pay1 (F := Ideal) x0 x1 x2 x3 x4 (ix2 p q)
      = Ideal.div (bact x0 x1 x2 x3 x4 p q)
          (max (Ideal.sqrt (∑ c : Fin 64, bact x0 x1 x2 x3 x4 p c * bact x0 x1 x2 x3 x4 p c)) Cert.Spec.E2) := by
  rw [pay_eq, divf_apply, clipV_apply, broadcastTo_a1_ab_apply, maximumf_apply, broadcast_apply]
  show Ideal.div _ (max (Ideal.sqrt (shapeCast S2000x1 _ shapeCasts_S2000_S2000x1 (ix2 p (0 : Fin 1)))) _) = _
  rw [shapeCast_a_a1_apply]
  exact congrArg (fun s => Ideal.div (bact x0 x1 x2 x3 x4 p q) (max (Ideal.sqrt s) Cert.Spec.E2))
    (rowsum_apply x0 x1 x2 x3 x4 p _ _)

/-! ## From the blocks to the array -/

theorem off_zero : (![0, 0] : Fin 2 → Nat) = fun _ => 0 := funext fun a => by fin_cases a <;> rfl

/-- The clipped entry of a block is the clipped entry of the arrays, when the block holds rows of the pre-activation
    array and the four rows are the four arrays' only rows. -/
theorem bact_eq_act (P : Cert.Spec.A2 50000 64) (mean var g bt : Cert.Spec.A2 1 64)
    (x0 : FVec Ideal S2000x64 .f32) (x1 x2 x3 x4 : FVec Ideal S1x64 .f32) (p : Fin 2000) (r : Fin 50000)
    (h0 : ∀ cc : Fin 64, x0 (ix2 p cc) = P (ix2 r cc))
    (h1 : ∀ cc : Fin 64, x1 (ix2 0 cc) = mean (ix2 0 cc)) (h2 : ∀ cc : Fin 64, x2 (ix2 0 cc) = var (ix2 0 cc))
    (h3 : ∀ cc : Fin 64, x3 (ix2 0 cc) = g (ix2 0 cc)) (h4 : ∀ cc : Fin 64, x4 (ix2 0 cc) = bt (ix2 0 cc)) (cc : Fin 64) :
    bact x0 x1 x2 x3 x4 p cc = Cert.Spec.act P mean var g bt r cc := by
  unfold bact Cert.Spec.act
  rw [h0, h1, h2, h3, h4]

/-- The printed index maps over the grid: the pre-activation's and the output's blocks are block `t` of the rows; the
    four rows are fetched whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the closing stage of the five arrays. -/
theorem flushed_eq (c : Dev nD) (t : Fin cfg2.N) :
    (dat2 (F := Ideal) V c).flushed 5 t
      = ((cfg2.win 5).blk t).view.read (Elt Ideal)
          (Cert.Spec.fin2 (V c main_v55_0) (V c main_v57) (V c main_v61) (V c main_v53) (V c main_v54)) := by
  show (cfg2.win 5).cut (grid2.coords t) ((dat2 V c).after 5 t) = _
  rw [after2_5]
  unfold out2_5
  rw [View.canon_unit_zero off_zero]
  simp only [View.ld_unit_zero (S := S2000x64) off_zero, View.ld_unit_zero (S := S1x64) off_zero]
  obtain ⟨e00, e01, e10, e11, e20, e21, e30, e31, e40, e41, e50, e51⟩ := idx_facts t
  have ht : t.val < 25 := t.isLt
  funext j
  have hj0 : (j 0).val < 2000 := (j 0).isLt
  have hj1 : (j 1).val < 64 := (j 1).isLt
  show k2_pay1 (F := Ideal) (iblk2 V c 0 t) (iblk2 V c 1 t) (iblk2 V c 2 t) (iblk2 V c 3 t) (iblk2 V c 4 t)
      (ix2 (⟨(j 0).val, hj0⟩ : Fin 2000) (⟨(j 1).val, hj1⟩ : Fin 64))
    = Cert.Spec.fin2 (V c main_v55_0) (V c main_v57) (V c main_v61) (V c main_v53) (V c main_v54) (((cfg2.win 5).blk t).view.emb j)
  refine (pay_apply _ _ _ _ _ _ _).trans ?_
  have hr : ((cfg2.win 5).blk t).view.emb j
      = ix2 (⟨2000 * t.val + (j 0).val, by omega⟩ : Fin 50000) (⟨(j 1).val, hj1⟩ : Fin 64) := by
    funext a; apply Fin.ext
    match a with
    | ⟨0, _⟩ => show win2_5.index t (0 : Fin 2) * 2000 + 1 * (j 0).val = 2000 * t.val + (j 0).val; omega
    | ⟨1, _⟩ => show win2_5.index t (1 : Fin 2) * 64 + 1 * (j 1).val = (j 1).val; omega
  rw [hr]
  have key := bact_eq_act (V c main_v55_0) (V c main_v57) (V c main_v61) (V c main_v53) (V c main_v54)
    (iblk2 V c 0 t) (iblk2 V c 1 t) (iblk2 V c 2 t) (iblk2 V c 3 t) (iblk2 V c 4 t)
    (⟨(j 0).val, hj0⟩ : Fin 2000) (⟨2000 * t.val + (j 0).val, by omega⟩ : Fin 50000)
    (fun cc => by
      show V c main_v55_0 (((cfg2.win 0).blk t).view.emb (ix2 (⟨(j 0).val, hj0⟩ : Fin 2000) cc)) = _
      refine congrArg _ (funext fun a => Fin.ext ?_)
      match a with
      | ⟨0, _⟩ => show win2_0.index t (0 : Fin 2) * 2000 + 1 * (j 0).val = 2000 * t.val + (j 0).val; omega
      | ⟨1, _⟩ => show win2_0.index t (1 : Fin 2) * 64 + 1 * cc.val = cc.val; omega)
    (fun cc => by
      show V c main_v57 (((cfg2.win 1).blk t).view.emb (ix2 (0 : Fin 1) cc)) = _
      refine congrArg _ (funext fun a => Fin.ext ?_)
      match a with
      | ⟨0, _⟩ => show win2_1.index t (0 : Fin 2) * 1 + 1 * 0 = 0; omega
      | ⟨1, _⟩ => show win2_1.index t (1 : Fin 2) * 64 + 1 * cc.val = cc.val; omega)
    (fun cc => by
      show V c main_v61 (((cfg2.win 2).blk t).view.emb (ix2 (0 : Fin 1) cc)) = _
      refine congrArg _ (funext fun a => Fin.ext ?_)
      match a with
      | ⟨0, _⟩ => show win2_2.index t (0 : Fin 2) * 1 + 1 * 0 = 0; omega
      | ⟨1, _⟩ => show win2_2.index t (1 : Fin 2) * 64 + 1 * cc.val = cc.val; omega)
    (fun cc => by
      show V c main_v53 (((cfg2.win 3).blk t).view.emb (ix2 (0 : Fin 1) cc)) = _
      refine congrArg _ (funext fun a => Fin.ext ?_)
      match a with
      | ⟨0, _⟩ => show win2_3.index t (0 : Fin 2) * 1 + 1 * 0 = 0; omega
      | ⟨1, _⟩ => show win2_3.index t (1 : Fin 2) * 64 + 1 * cc.val = cc.val; omega)
    (fun cc => by
      show V c main_v54 (((cfg2.win 4).blk t).view.emb (ix2 (0 : Fin 1) cc)) = _
      refine congrArg _ (funext fun a => Fin.ext ?_)
      match a with
      | ⟨0, _⟩ => show win2_4.index t (0 : Fin 2) * 1 + 1 * 0 = 0; omega
      | ⟨1, _⟩ => show win2_4.index t (1 : Fin 2) * 64 + 1 * cc.val = cc.val; omega)
  simp only [key]
  rfl

/-- An index of the array is in point `t`'s block iff each coordinate is in the block's range on its axis. -/
theorem mem_blk (t : Fin cfg2.N) (i : S50000x64.Idx) :
    i ∈ ((cfg2.win 5).blk t).view.set
      ↔ ∀ a : Fin 2, win2_5.index t a * S2000x64.size a ≤ (i a).val ∧ (i a).val < win2_5.index t a * S2000x64.size a + S2000x64.size a := by
  show i ∈ ((View.whole main_v62).slice (win2_5.rect t)).set ↔ _
  rw [View.set_slice_whole, Rect.mem_set_unit]
  exact Iff.rfl

/-- Every entry of the array is written back by the point of its row's block: row `r` by point `r / 2000`. -/
theorem cover (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ : ∃ t : Fin cfg2.N, t.val = (i 0).val / 2000 :=
    ⟨⟨(i 0).val / 2000, by show (i 0).val / 2000 < 25; omega⟩, rfl⟩
  obtain ⟨e00, e01, e10, e11, e20, e21, e30, e31, e40, e41, e50, e51⟩ := idx_facts t
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- After the 25 points, output window 5's array is the closing stage of the five arrays the region reads. -/
theorem arr5 (c : Dev nD) :
    (dat2 (F := Ideal) V c).arrAt 5 cfg2.N
      = Cert.Spec.fin2 (V c main_v55_0) (V c main_v57) (V c main_v61) (V c main_v53) (V c main_v54) :=
  (dat2 (F := Ideal) V c).arrAt_eq_of_cover 5
    (Cert.Spec.fin2 (V c main_v55_0) (V c main_v57) (V c main_v61) (V c main_v53) (V c main_v54))
    (fun t _ => flushed_eq V c t) cover

end Cert.KernelIdeal.Reg2

end
-- ==== Proof.KVal.lean ====
/-
  What the kernel's program leaves in its result buffer, as one function of the six argument arrays (at the ideal
  instance): the closing stage of the pre-activation, of the column accumulators over the row count, and of the
  scale and shift rows — each region's array read through the host glue between the regions.
-/
import proofs.«133745_j34007551050423_1_alg».proof.Proof.KHost
import proofs.«133745_j34007551050423_1_alg».proof.Proof.KReg0
import proofs.«133745_j34007551050423_1_alg».proof.Proof.KReg1
import proofs.«133745_j34007551050423_1_alg».proof.Proof.KReg2

set_option maxRecDepth 16384

noncomputable section

namespace Cert.KernelIdeal.KVal

open Idealize.ShloMosaic Idealize.ShloMosaic.TcCoe Idealize.SL.Sem
open Cert.KernelIdeal Cert.KernelIdeal.Gen Cert.KernelIdeal.HostV

section Fn
variable (x : (⟨S50000x64, .f32⟩ : BufTy).Contents (Elt Ideal)) (a1 : (⟨S2x800000, .i32⟩ : BufTy).Contents (Elt Ideal))
  (w : (⟨S64x64, .f32⟩ : BufTy).Contents (Elt Ideal)) (b g bt : (⟨S64, .f32⟩ : BufTy).Contents (Elt Ideal))

/-- The kernel's pre-activation. -/
def preK : Cert.Spec.A2 50000 64 :=
  Cert.Spec.pre (Cert.Spec.hmat x w) (agg (F := Ideal) (Cert.Spec.hmat x w) (src a1) (dst a1)) (d2 (F := Ideal) (dst a1)) (row b)

/-- The kernel's result. -/
def outK : Cert.Spec.A2 50000 64 :=
  Cert.Spec.fin2 (preK x a1 w b) (mean (F := Ideal) (Cert.Spec.colsumB (preK x a1 w b)))
    (var (F := Ideal) (Cert.Spec.colsumB (preK x a1 w b)) (Cert.Spec.colsumsqB (preK x a1 w b))) (row g) (row bt)
end Fn

variable (m : (ℓ : Loc nD τ sig) → Buf (Elt Ideal) ℓ) (ρ : Dev nD → PrngReg) (c : Dev nD)

/-- The result buffer after the last region. -/
theorem kval : W6 m ρ c (Proc.devRef .tc main_v62)
    = outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have hx : V1 m ρ c main_arg0 = m ((c : Thread nD τ).loc main_arg0) := W1_arg m ρ c main_arg0 (by simp)
  have hw : V1 m ρ c main_arg2 = m ((c : Thread nD τ).loc main_arg2) := W1_arg m ρ c main_arg2 (by simp)
  have h4 : W2 m ρ c (Proc.devRef .tc main_v4)
      = Cert.Spec.hmat (m ((c : Thread nD τ).loc main_arg0)) (m ((c : Thread nD τ).loc main_arg2)) := by
    rw [W2_v4, Cert.KernelIdeal.Reg0.arr2 (V1 m ρ) c, hx, hw]
  have v4 : V3 m ρ c main_v4 = Cert.Spec.hmat (m ((c : Thread nD τ).loc main_arg0)) (m ((c : Thread nD τ).loc main_arg2)) :=
    (W3_v4 m ρ c).trans h4
  have v51 : V3 m ρ c main_v51 = agg (F := Ideal) (Cert.Spec.hmat (m ((c : Thread nD τ).loc main_arg0)) (m ((c : Thread nD τ).loc main_arg2)))
      (src (m ((c : Thread nD τ).loc main_arg1))) (dst (m ((c : Thread nD τ).loc main_arg1))) := by
    refine (W3_v51 m ρ c).trans ?_
    rw [h4, W2_v1, W2_v3]
  have v18 : V3 m ρ c main_v18 = d2 (F := Ideal) (dst (m ((c : Thread nD τ).loc main_arg1))) := by
    refine (W3_v18 m ρ c).trans ?_
    rw [W2_v3]
  have v52 : V3 m ρ c main_v52 = row (m ((c : Thread nD τ).loc main_arg3)) := by
    refine (W3_v52 m ρ c).trans ?_
    rw [W2_arg3]
  have hP : Cert.KernelIdeal.Reg1.P (V3 m ρ) c
      = preK (m ((c : Thread nD τ).loc main_arg0)) (m ((c : Thread nD τ).loc main_arg1)) (m ((c : Thread nD τ).loc main_arg2)) (m ((c : Thread nD τ).loc main_arg3)) := by
    unfold Cert.KernelIdeal.Reg1.P preK
    rw [v4, v51, v18, v52]
  have e0 : V5 m ρ c main_v55_0 = preK (m ((c : Thread nD τ).loc main_arg0)) (m ((c : Thread nD τ).loc main_arg1)) (m ((c : Thread nD τ).loc main_arg2)) (m ((c : Thread nD τ).loc main_arg3)) :=
    (W5_v55_0 m ρ c).trans ((W4_v55_0 m ρ c).trans ((Cert.KernelIdeal.Reg1.arr4 (V3 m ρ) c).trans hP))
  have e1 : V5 m ρ c main_v57 = mean (F := Ideal) (Cert.Spec.colsumB (preK (m ((c : Thread nD τ).loc main_arg0)) (m ((c : Thread nD τ).loc main_arg1)) (m ((c : Thread nD τ).loc main_arg2)) (m ((c : Thread nD τ).loc main_arg3)))) := by
    refine (W5_v57 m ρ c).trans ?_
    rw [W4_v55_1, Cert.KernelIdeal.Reg1.arr5 (V3 m ρ) c, hP]
  have e2 : V5 m ρ c main_v61 = var (F := Ideal) (Cert.Spec.colsumB (preK (m ((c : Thread nD τ).loc main_arg0)) (m ((c : Thread nD τ).loc main_arg1)) (m ((c : Thread nD τ).loc main_arg2)) (m ((c : Thread nD τ).loc main_arg3))))
      (Cert.Spec.colsumsqB (preK (m ((c : Thread nD τ).loc main_arg0)) (m ((c : Thread nD τ).loc main_arg1)) (m ((c : Thread nD τ).loc main_arg2)) (m ((c : Thread nD τ).loc main_arg3)))) := by
    refine (W5_v61 m ρ c).trans ?_
    rw [W4_v55_1, W4_v55_2, Cert.KernelIdeal.Reg1.arr5 (V3 m ρ) c, Cert.KernelIdeal.Reg1.arr6 (V3 m ρ) c, hP]
  have e3 : V5 m ρ c main_v53 = row (m ((c : Thread nD τ).loc main_arg4)) := by
    refine (W5_v53 m ρ c).trans ((W4_v53 m ρ c).trans ((W3_v53 m ρ c).trans ?_))
    rw [W2_arg4]
  have e4 : V5 m ρ c main_v54 = row (m ((c : Thread nD τ).loc main_arg5)) := by
    refine (W5_v54 m ρ c).trans ((W4_v54 m ρ c).trans ((W3_v54 m ρ c).trans ?_))
    rw [W2_arg5]
  rw [W6_v62, Cert.KernelIdeal.Reg2.arr5 (V5 m ρ) c, e0, e1, e2, e3, e4]
  rfl

end Cert.KernelIdeal.KVal

end
-- ==== Proof.Algebra.lean ====
/-
  Real-number facts the comparison of the two programs rests on.

  * which extended reals are real numbers, and that sums, products and the inverse square root of a positive number
    stay real;
  * the values of the float words the programs use (zero, one, the row count);
  * a sum over 25 blocks of 2000 rows is the sum over all 50000 rows;
  * the variance identity: the mean of the squares less the square of the mean is the mean of the squared
    deviations, for real entries.
-/
import proofs.«133745_j34007551050423_1_alg».proof.Proof.Spec

noncomputable section

open scoped BigOperators

namespace Cert.Algebra

open Idealize.ShloMosaic Idealize.ShloMosaic.ValueIdx Cert.Spec

/-- An extended real that is a real number. -/
def IsReal (x : EReal) : Prop := ∃ r : ℝ, x = (r : EReal)

/-- A finite sum of real numbers, read in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem Z_eq : Z = 0 := by
  simp [Ideal.ofBits, Ideal.ieee]
theorem OneF_eq : OneF = ((1 : ℝ) : EReal) := by
  simp [Ideal.ofBits, Ideal.ieee, -EReal.coe_mul]; norm_num
theorem NRows_eq : NRows = ((50000 : ℝ) : EReal) := by
  simp [Ideal.ofBits, Ideal.ieee, -EReal.coe_mul]; norm_num

theorem isReal_coe (r : ℝ) : IsReal (r : EReal) := ⟨r, rfl⟩
theorem isReal_zero : IsReal (0 : EReal) := ⟨0, rfl⟩
theorem isReal_Z : IsReal Z := by
  rw [Z_eq]; exact isReal_zero
theorem isReal_OneF : IsReal OneF := by
  rw [OneF_eq]; exact isReal_coe 1
theorem isReal_add {x y : EReal} (hx : IsReal x) (hy : IsReal y) : IsReal (x + y) := by
  obtain ⟨a, rfl⟩ := hx
  obtain ⟨b, rfl⟩ := hy
  exact ⟨a + b, (EReal.coe_add a b).symm⟩
theorem isReal_mul {x y : EReal} (hx : IsReal x) (hy : IsReal y) : IsReal (x * y) := by
  obtain ⟨a, rfl⟩ := hx
  obtain ⟨b, rfl⟩ := hy
  exact ⟨a * b, (EReal.coe_mul a b).symm⟩
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact isReal_add (h a (Finset.mem_insert_self a s))
      (ih fun i hi => h i (Finset.mem_insert_of_mem hi))

/-- A difference of real numbers is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩
/-- The larger of two real numbers is real. -/
theorem isReal_max {x y : EReal} (hx : IsReal x) (hy : IsReal y) : IsReal (max x y) := by
  rcases max_choice x y with h | h <;> rw [h] <;> assumption
theorem isReal_NRows : IsReal NRows := by
  rw [NRows_eq]; exact isReal_coe 50000
/-- A real number over the row count is real. -/
theorem isReal_div_NRows {x : EReal} (hx : IsReal x) : IsReal (Ideal.div x NRows) := by
  rw [NRows_eq, Ideal.div_coe (by norm_num : (50000 : ℝ) ≠ 0)]
  exact isReal_mul hx (isReal_coe _)

/-- A count of ones plus one, from either side, is a real number that is at least one; its inverse square root is real. -/
theorem isReal_rsqrt_count {ι : Type*} (s : Finset ι) : IsReal (Ideal.rsqrt (OneF + ∑ _e ∈ s, OneF)) := by
  -- the argument is the real number 1 + card s, which is positive
  have hval : OneF + ∑ _e ∈ s, OneF = (((1 : ℝ) + ∑ _e ∈ s, (1 : ℝ) : ℝ) : EReal) := by
    rw [OneF_eq, coe_sum, EReal.coe_add]
  have hpos : (0 : ℝ) < (1 : ℝ) + ∑ _e ∈ s, (1 : ℝ) := by
    have : (0 : ℝ) ≤ ∑ _e ∈ s, (1 : ℝ) := Finset.sum_nonneg fun _ _ => zero_le_one
    linarith
  rw [hval, Ideal.rsqrt_coe, if_neg (not_lt.mpr hpos.le), if_neg hpos.ne']
  exact isReal_coe _

/-- The 25 blocks of 2000 rows list every one of the 50000 rows exactly once: row k is row k mod 2000 of block
    k div 2000. -/
def blockEquiv : Fin 25 × Fin 2000 ≃ Fin 50000 where
  toFun p := blockRow p.1 p.2
  invFun k := (⟨k.val / 2000, by have := k.isLt; omega⟩, ⟨k.val % 2000, Nat.mod_lt _ (by norm_num)⟩)
  left_inv p := by
    obtain ⟨⟨t, ht⟩, ⟨r, hr⟩⟩ := p
    simp only [blockRow, Prod.mk.injEq, Fin.mk.injEq]
    constructor <;> omega
  right_inv k := by
    obtain ⟨k, hk⟩ := k
    simp only [blockRow, Fin.mk.injEq]
    omega

/-- The sum over 25 blocks of 2000 rows is the sum over the 50000 rows. -/
theorem sum_blocks {M : Type*} [AddCommMonoid M] (f : Fin 50000 → M) :
    ∑ t : Fin 25, ∑ r : Fin 2000, f (blockRow t r) = ∑ k : Fin 50000, f k := by
  rw [← Equiv.sum_comp blockEquiv f, Fintype.sum_prod_type]
  rfl

/-- The variance identity over the reals: with m the mean of n = 50000 numbers, the mean of the squares less m²
    is the mean of the squared deviations from m. -/
theorem real_var_identity (q : Fin 50000 → ℝ) :
    (∑ k, q k * q k) * (1 / 50000) - (∑ k, q k) * (1 / 50000) * ((∑ k, q k) * (1 / 50000))
      = (∑ k, (q k - (∑ k, q k) * (1 / 50000)) * (q k - (∑ k, q k) * (1 / 50000))) * (1 / 50000) := by
  set m : ℝ := (∑ k, q k) * (1 / 50000) with hm
  have hexp : ∀ k, (q k - m) * (q k - m) = q k * q k - 2 * m * q k + m * m := fun k => by ring
  have hsum : ∑ k, (q k - m) * (q k - m) = (∑ k, q k * q k) - 2 * m * (∑ k, q k) + 50000 * (m * m) := by
    simp only [hexp, Finset.sum_add_distrib, Finset.sum_sub_distrib, ← Finset.mul_sum, Finset.sum_const,
      Finset.card_univ, Fintype.card_fin, nsmul_eq_mul]
    push_cast
    ring
  have hS : ∑ k, q k = 50000 * m := by rw [hm]; ring
  rw [hsum, hS]
  ring

/-- The variance identity on real entries: mean of squares less squared mean = mean of squared deviations. -/
theorem var_identity (p : Fin 50000 → EReal) (hp : ∀ k, IsReal (p k)) :
    Ideal.div (Z + ∑ k, p k * p k) NRows
        - Ideal.div (Z + ∑ k, p k) NRows * Ideal.div (Z + ∑ k, p k) NRows
      = Ideal.div (Z + ∑ k, (p k - Ideal.div (Z + ∑ k, p k) NRows) * (p k - Ideal.div (Z + ∑ k, p k) NRows)) NRows := by
  -- name the real entries
  choose q hq using hp
  obtain rfl : p = fun k => ((q k : ℝ) : EReal) := funext hq
  have hn : (50000 : ℝ) ≠ 0 := by norm_num
  -- the mean is a real number
  have hmean : Ideal.div (Z + ∑ k, ((q k : ℝ) : EReal)) NRows = (((∑ k, q k) * (1 / 50000) : ℝ) : EReal) := by
    rw [Z_eq, zero_add, NRows_eq, Ideal.div_coe hn, coe_sum, ← EReal.coe_mul]
  have hsq : ∀ k, ((q k : ℝ) : EReal) * ((q k : ℝ) : EReal) = ((q k * q k : ℝ) : EReal) :=
    fun k => (EReal.coe_mul _ _).symm
  have hdev : ∀ k, (((q k : ℝ) : EReal) - (((∑ k, q k) * (1 / 50000) : ℝ) : EReal))
      * (((q k : ℝ) : EReal) - (((∑ k, q k) * (1 / 50000) : ℝ) : EReal))
      = (((q k - (∑ k, q k) * (1 / 50000)) * (q k - (∑ k, q k) * (1 / 50000)) : ℝ) : EReal) :=
    fun k => by rw [← EReal.coe_sub, ← EReal.coe_mul]
  simp only [hmean, hsq, hdev]
  rw [Z_eq, zero_add, zero_add, NRows_eq, Ideal.div_coe hn, Ideal.div_coe hn, coe_sum, coe_sum,
    ← EReal.coe_mul, ← EReal.coe_mul, ← EReal.coe_mul, ← EReal.coe_sub, real_var_identity]

end Cert.Algebra

end
-- ==== Proof.Finite.lean ====
/-
  From the precondition to real entries: an input all of whose entries are smaller in absolute value than plus infinity
  has only real entries.
-/
import proofs.«133745_j34007551050423_1_alg».proof.Pre_finite_inputs
import proofs.«133745_j34007551050423_1_alg».proof.Proof.Gen.Pre_finite_inputs
import proofs.«133745_j34007551050423_1_alg».proof.Proof.Algebra
import Idealize.ShloMosaic.Lib.ReduceAll
import Idealize.ShloMosaic.Lib.ValueIdx

noncomputable section

namespace Cert.Finite

open Idealize.ShloMosaic Idealize.ShloMosaic.ValueIdx Cert.Algebra

/-- The scalar shape has one index. -/
instance : Subsingleton Cert.Pre_finite_inputs.S_.Idx := ⟨fun a b => funext fun d => d.elim0⟩

/-- The float word with all exponent bits set and no fraction bit is plus infinity. -/
theorem inf_word : Ideal.ofBits .f32 0x7F800000#32 = (⊤ : EReal) := by simp [Ideal.ofBits, Ideal.ieee]

/-- An extended real whose absolute value max x (-x) compares below plus infinity is a real number: at either
    infinity the absolute value is plus infinity itself. -/
theorem isReal_of_abs_lt (x : EReal)
    (h : Ideal.cmp .olt (max x (-x)) (Ideal.ofBits .f32 0x7F800000#32) = 1#1) : IsReal x := by
  rw [inf_word] at h
  induction x using EReal.rec with
  | bot => simp [Ideal.cmp] at h
  | coe r => exact ⟨r, rfl⟩
  | top => simp [Ideal.cmp] at h

/-- One input's test: if the conjunction over all entries of "the absolute value is below plus infinity" is one,
    every entry is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x)
            (broadcastInDim s ![] hb (constant Cert.Pre_finite_inputs.S_ .f32 0x7F800000#32)))
          init hr hu ix0 = 1#1) :
    ∀ i, IsReal (x i) := by
  intro i
  have hi := Host.reduce_andi_all _ init hr hu ix0 e i
  exact isReal_of_abs_lt (x i) hi

/-- If the printed precondition is all ones on the six inputs, every entry of the five float inputs is a real number. -/
theorem real_of_fn
    (x0 : FVec Ideal Cert.Pre_finite_inputs.S50000x64 .f32) (x1 : IVec Cert.Pre_finite_inputs.S2x800000 32)
    (x2 : FVec Ideal Cert.Pre_finite_inputs.S64x64 .f32) (x3 x4 x5 : FVec Ideal Cert.Pre_finite_inputs.S64 .f32)
    (h : Cert.Pre_finite_inputs.fn (F := Ideal) x0 x1 x2 x3 x4 x5 = fun _ => 1#1) :
    (∀ i, IsReal (x0 i)) ∧ (∀ i, IsReal (x2 i)) ∧ (∀ i, IsReal (x3 i)) ∧ (∀ i, IsReal (x4 i)) ∧ (∀ i, IsReal (x5 i)) := by
  have h0 := congrFun h ix0
  dsimp only [Cert.Pre_finite_inputs.fn, Cert.Pre_finite_inputs.fn_part1, andi] at h0
  obtain ⟨h0123, h5⟩ := IntOp.andi_eq_one.1 h0
  obtain ⟨h012, h4⟩ := IntOp.andi_eq_one.1 h0123
  obtain ⟨h01, h3⟩ := IntOp.andi_eq_one.1 h012
  obtain ⟨h00, h2⟩ := IntOp.andi_eq_one.1 h01
  exact ⟨real_of_all x0 _ _ _ _ h00, real_of_all x2 _ _ _ _ h2, real_of_all x3 _ _ _ _ h3,
    real_of_all x4 _ _ _ _ h4, real_of_all x5 _ _ _ _ h5⟩

end Cert.Finite

end
-- ==== Proof.LibSegmentSum.lean ====
/-
  Index-driven host operations read at one index, at the ideal instance (floats are extended reals).

  A segment sum adds, at each segment, the updates whose index word names that segment; an indexed read takes the row
  its index word names. Both are stated over ANY dimension-number record of the right type whose fields are given by
  hypotheses, so that one statement serves every size at which a program uses the operation.

  * `scatterAdd_seg1`   : a one-axis segment sum at a segment.
  * `scatterAdd_segRows`: a segment sum of rows at (segment, column).
  * `gather_rows`       : a gather of rows at (position, column).
  * `gather_seg1`       : a one-axis gather at a position.
  * `clamp_of_inRange`  : a word in range is its own clamp.

  The road for a segment sum: on each operand axis the landing coordinate of an update is its window start (the index
  word read signed, on the axis the index names; zero elsewhere) plus its window coordinate (the update's own coordinate
  on a kept axis; zero on an inserted one). So an update lands on a given element exactly when its index word is the
  element's segment and its remaining coordinates are the element's. The sum over the update indices that land there
  is then re-indexed by coordinates.
-/
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

/-! ## One-axis segment sum -/

section Seg1

variable {N M w : Nat} (d : ScatterDims ⟨1, ![N]⟩ ⟨2, ![M, 1]⟩ ⟨1, ![M]⟩)

/-- The window's start on the one operand axis is the update's index word, read signed. -/
theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the row of the index table: the update's one coordinate
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the index table: the position of operand axis 0 in the map, which is 0
    unfold ScatterDims.siIdx
    rw [dif_pos (by rw [hiv])]
    apply Fin.ext
    show List.idxOf (0 : Fin 1) d.scatterDimsToOperandDims = 0
    rw [hsd]; simp

/-- The operand's one axis is inserted: the update has no coordinate inside the window. -/
theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

/-- An update lands on segment `i` exactly when its index word, read signed, is `i`. -/
theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

/-- A one-axis segment sum read at a segment: the operand there plus the updates whose index word, read signed, is that segment. -/
theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1
  -- a sum over the update indices is a sum over their one coordinate
  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

/-! ## Segment sum of rows -/

/-- An entry of a one-element list is that element. -/
theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

/-- On the segment axis the window's start is the update row's index word, read signed. -/
theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl
  -- the updates' one scatter axis is axis 0
  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

/-- The column axis is not named by the index: its window starts at zero. -/
theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

/-- The segment axis is inserted: the update has no coordinate inside the window there. -/
theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

/-- On the column axis the window coordinate is the update's column. -/
theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

/-- An update element lands on (segment `i`, column `c`) exactly when its row's index word, read signed, is `i`
    and its own column is `c`. -/
theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

/-- A segment sum of rows read at (segment, column). -/
theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1
  -- a sum over the update indices is the double sum over (row, column); in each row only column `c` can land
  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

/-! ## Gathers -/

/-- The index of row `p` of a one-column table, in the two spellings that name it. -/
theorem ixP_eq {n : Nat} (p : Fin n) : StableHlo.Predicate.ixP p = ix2 p (0 : Fin 1) := by
  funext b; match b with | ⟨0, _⟩ => rfl | ⟨1, _⟩ => rfl

/-- A rank-1 index from its coordinate, in the two spellings that name it. -/
theorem ofFin_eq {n : Nat} (p : Fin n) : Shape.Idx.ofFin p = ix1 p := by
  funext b; match b with | ⟨0, _⟩ => rfl

/-- A one-axis gather (x[idx] of a flat array) read at a position: the entry the index word names, read signed and clamped into [0, N - 1]. -/
theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

/-- The start-index table is read at (the result's row, 0). -/
theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by
  -- the result's one batch axis is axis 0
  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the column axis the offset coordinate is the result's column. -/
theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

/-- A gather of rows (x[idx] of a matrix) read at (position, column): the row the index word names, read signed and clamped into [0, N - 1]. -/
theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  · -- the column axis: kept and not named by the index, so the offset coordinate alone
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

/-! ## Words -/

/-- A word that, read signed, lies in [0, N) is its own clamp into [0, N - 1]. -/
theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.RefVal.lean ====
/-
  The reference program read entry by entry at the ideal instance.

  Its matrix product is the plain sum of products; its degree count is one plus the number of edges that point at
  the node; its pre-activation is the scaled product row plus the contributions of the edges that point at the node,
  plus the bias; and its result is the closing stage of that pre-activation, of its column mean, and of its
  mean squared deviation from that mean.
-/
import proofs.«133745_j34007551050423_1_alg».proof.Proof.RefRead
import proofs.«133745_j34007551050423_1_alg».proof.Proof.Spec
import proofs.«133745_j34007551050423_1_alg».proof.Proof.Algebra
import proofs.«133745_j34007551050423_1_alg».proof.Proof.LibSegmentSum
import Idealize.ShloMosaic.Lib.ValueIdx
import Idealize.ShloMosaic.Lib.Pipeline.Value
import Idealize.ShloMosaic.PureOps.Ideal.Laws

noncomputable section

open scoped BigOperators

namespace Cert.ReferenceIdeal.RefVal

open Idealize.ShloMosaic Idealize.ShloMosaic.TcCoe Idealize.ShloMosaic.ValueIdx
open Cert.ReferenceIdeal Cert.ReferenceIdeal.ReadP Cert.Algebra

variable (x : (⟨S50000x64, .f32⟩ : BufTy).Contents (Elt Ideal)) (a1 : (⟨S2x800000, .i32⟩ : BufTy).Contents (Elt Ideal))
  (w : (⟨S64x64, .f32⟩ : BufTy).Contents (Elt Ideal)) (b g bt : (⟨S64, .f32⟩ : BufTy).Contents (Elt Ideal))

/-- The reference's matrix product is the sum of products. -/
theorem v4_eq : val_main_v4 (F := Ideal) x w = Cert.Spec.hmat x w := by
  funext i
  rw [val_main_v4_apply]
  show (∑ k : Fin 64, x (lidx_main_v4 i k) * w (ridx_main_v4 i k)) = ∑ k : Fin 64, x (ix2 (i 0) k) * w (ix2 k (i 1))
  refine Finset.sum_congr rfl fun k _ => ?_
  have el : lidx_main_v4 i k = ix2 (i 0) k := funext fun a => by
    match a with
    | ⟨0, _⟩ => rfl
    | ⟨1, _⟩ => rfl
  have er : ridx_main_v4 i k = ix2 k (i 1) := funext fun a => by
    match a with
    | ⟨0, _⟩ => rfl
    | ⟨1, _⟩ => rfl
  rw [el, er]
  rfl

/-- The reference's degree at node i: one, plus a one for every edge whose (normalised) target word is i. -/
theorem v13_apply (i : Fin 50000) :
    val_main_v13 (F := Ideal) a1 (ix1 i)
      = Cert.Spec.OneF + ∑ e ∈ Finset.univ.filter (fun e : Fin 800000 => (val_main_v11 (F := Ideal) a1 (ix2 e 0)).toInt = (i.val : ℤ)), Cert.Spec.OneF := by
  -- the operand and the updates are the constant one
  have h5 : val_main_v5 (F := Ideal) (ix1 i) = Cert.Spec.OneF := by
    rw [val_main_v5_apply, val_main_cst_apply]; rfl
  have h12 : ∀ e : Fin 800000, val_main_v12 (F := Ideal) (ix1 e) = Cert.Spec.OneF := fun e => by
    rw [val_main_v12_apply, val_main_cst_1_apply]; rfl
  unfold val_main_v13
  rw [Cert.LibSegmentSum.scatterAdd_seg1 scatter_S50000_S800000x1_S800000_n_0_0_1 rfl rfl rfl rfl, h5]
  simp only [h12]

/-- The segment sum of the edge contributions, read at an entry. -/
theorem v50_at (r : Fin 50000) (c : Fin 64) :
    val_main_v50 (F := Ideal) x a1 w (ix2 r c)
      = val_main_v18 (F := Ideal) x a1 w (ix2 r c)
        + ∑ e ∈ Finset.univ.filter (fun e : Fin 800000 => (val_main_v49 (F := Ideal) a1 (ix2 e 0)).toInt = (r.val : ℤ)),
            val_main_v43 (F := Ideal) x a1 w (ix2 e c) := by
  unfold val_main_v50
  exact Cert.LibSegmentSum.scatterAdd_segRows scatter_S50000x64_S800000x1_S800000x64_1_0_0_1 rfl rfl rfl rfl
    (val_main_v18 (F := Ideal) x a1 w) (val_main_v49 (F := Ideal) a1) (val_main_v43 (F := Ideal) x a1 w) r c

/-- The scaled product entry: the product entry times the squared inverse root degree of its row. -/
theorem v18_at (r : Fin 50000) (c : Fin 64) :
    val_main_v18 (F := Ideal) x a1 w (ix2 r c)
      = val_main_v4 (F := Ideal) x w (ix2 r c) * (val_main_v14 (F := Ideal) a1 (ix1 r) * val_main_v14 (F := Ideal) a1 (ix1 r)) := by
  rw [val_main_v18_apply, val_main_v17_apply, val_main_v16_apply, val_main_v15_apply]
  have e : idx_main_v16 (idx_main_v17 (ix2 r c)) = ix1 r := funext fun a => by
    match a with
    | ⟨0, _⟩ => rfl
  rw [e]
  simp only [Ideal.mulf_def]

/-- The broadcast bias at an entry is the bias of its column. -/
theorem v52_at (r : Fin 50000) (c : Fin 64) : val_main_v52 (F := Ideal) b (ix2 r c) = b (ix1 c) := by
  rw [val_main_v52_apply, val_main_v51_apply]
  exact congrArg b (funext fun a => by
    match a with
    | ⟨0, _⟩ => rfl)

/-- The reference's pre-activation at (r, c): the product entry times the squared inverse root degree of the row, plus
    the contributions of the edges whose (normalised) target word is r, plus the bias of the column. -/
theorem v53_apply (i : S50000x64.Idx) :
    val_main_v53 (F := Ideal) x a1 w b i
      = (val_main_v4 (F := Ideal) x w i * (val_main_v14 (F := Ideal) a1 (ix1 (i 0)) * val_main_v14 (F := Ideal) a1 (ix1 (i 0)))
          + ∑ e ∈ Finset.univ.filter (fun e : Fin 800000 => (val_main_v49 (F := Ideal) a1 (ix2 e 0)).toInt = ((i 0).val : ℤ)),
              val_main_v43 (F := Ideal) x a1 w (ix2 e (i 1)))
        + b (ix1 (i 1)) := by
  obtain ⟨r, c, rfl⟩ : ∃ (r : Fin 50000) (c : Fin 64), i = ix2 r c := ⟨i 0, i 1, eq_ix2 i⟩
  rw [val_main_v53_apply, Ideal.addf_def, v52_at, v50_at, v18_at]

/-- With real inputs every entry of the matrix product is a real number: a finite sum of products of reals. -/
theorem v4_real (hx : ∀ i, IsReal (x i)) (hw : ∀ i, IsReal (w i)) (i : S50000x64.Idx) :
    IsReal (val_main_v4 (F := Ideal) x w i) := by
  rw [val_main_v4_apply]
  exact isReal_sum _ _ fun k _ => isReal_mul (hx _) (hw _)

/-- Every inverse root degree is a real number: the degree is one plus a count. -/
theorem v14_real (j : S50000.Idx) : IsReal (val_main_v14 (F := Ideal) a1 j) := by
  obtain ⟨r, rfl⟩ : ∃ r : Fin 50000, j = ix1 r := ⟨j 0, eq_ix1 j⟩
  rw [val_main_v14_apply, Ideal.hostUnary_rsqrt_def, v13_apply]
  exact isReal_rsqrt_count _

/-- With real inputs every edge contribution is a real number: a product of two gathered inverse root degrees
    and a gathered product entry, and a gathered entry is one of the operand's entries. -/
theorem v43_real (hx : ∀ i, IsReal (x i)) (hw : ∀ i, IsReal (w i)) (j : S800000x64.Idx) :
    IsReal (val_main_v43 (F := Ideal) x a1 w j) := by
  rw [val_main_v43_apply, val_main_v42_apply, val_main_v34_apply, val_main_v33_apply]
  simp only [Ideal.mulf_def]
  refine isReal_mul (isReal_mul ?_ ?_) ?_
  · unfold val_main_v25 Host.gather
    exact v14_real a1 _
  · unfold val_main_v32 Host.gather
    exact v14_real a1 _
  · unfold val_main_v41 Host.gather
    exact v4_real x w hx hw _

/-- With real inputs every entry of the reference's pre-activation is a real number. -/
theorem v53_real (hx : ∀ i, IsReal (x i)) (hw : ∀ i, IsReal (w i)) (hb : ∀ i, IsReal (b i)) (i : S50000x64.Idx) :
    IsReal (val_main_v53 (F := Ideal) x a1 w b i) := by
  rw [v53_apply]
  exact isReal_add
    (isReal_add (isReal_mul (v4_real x w hx hw i) (isReal_mul (v14_real a1 _) (v14_real a1 _)))
      (isReal_sum _ _ fun e _ => v43_real x a1 w hx hw _))
    (hb _)

/-- The reference's column mean of its pre-activation. -/
def meanR : Cert.Spec.A2 1 64 :=
  fun j => Ideal.div (Cert.Spec.Z + ∑ k : Fin 50000, val_main_v53 (F := Ideal) x a1 w b (ix2 k (j 1))) Cert.Spec.NRows

/-- The reference's column mean of the squared deviations from the column mean. -/
def varR : Cert.Spec.A2 1 64 :=
  fun j => Ideal.div (Cert.Spec.Z + ∑ k : Fin 50000,
      (val_main_v53 (F := Ideal) x a1 w b (ix2 k (j 1)) - meanR x a1 w b j) * (val_main_v53 (F := Ideal) x a1 w b (ix2 k (j 1)) - meanR x a1 w b j)) Cert.Spec.NRows

/-- A length-64 vector as a one-row matrix. -/
def row (v : (⟨S64, .f32⟩ : BufTy).Contents (Elt Ideal)) : Cert.Spec.A2 1 64 := fun j => v (ix1 (j 1))

/-- The constant the positive part is taken against is the zero word. -/
theorem call0_at (j : S50000x64.Idx) : val_main_call0_v0 (F := Ideal) j = Cert.Spec.Z := by
  rw [val_main_call0_v0_apply, val_main_call0_cst_apply]; rfl

/-- The reference's column mean at column c. -/
theorem v56_at (c : Fin 64) : val_main_v56 (F := Ideal) x a1 w b (ix1 c) = meanR x a1 w b (ix2 0 c) := by
  rw [val_main_v56_apply, Ideal.hostDivf_def, val_main_v54_apply, val_main_cst_10_apply, val_main_v55_apply,
    val_main_cst_11_apply]
  have e : ∀ k : Fin 50000, idx_main_v54 (ix1 c) k = ix2 k c := fun k => funext fun a => by
    match a with
    | ⟨0, _⟩ => rfl
    | ⟨1, _⟩ => rfl
  simp only [e]
  rfl

/-- The column mean broadcast to an entry (as the deviations read it). -/
theorem v58_at (r : Fin 50000) (c : Fin 64) :
    val_main_v58 (F := Ideal) x a1 w b (ix2 r c) = meanR x a1 w b (ix2 0 c) := by
  rw [val_main_v58_apply, val_main_v57_apply]
  have e : idx_main_v57 (idx_main_v58 (ix2 r c)) = ix1 c := funext fun a => by
    match a with
    | ⟨0, _⟩ => rfl
  rw [e, v56_at]

/-- The column mean broadcast to an entry (as the normalisation reads it). -/
theorem v65_at (r : Fin 50000) (c : Fin 64) :
    val_main_v65 (F := Ideal) x a1 w b (ix2 r c) = meanR x a1 w b (ix2 0 c) := by
  rw [val_main_v65_apply, val_main_v64_apply]
  have e : idx_main_v64 (idx_main_v65 (ix2 r c)) = ix1 c := funext fun a => by
    match a with
    | ⟨0, _⟩ => rfl
  rw [e, v56_at]

/-- The reference's column mean of squared deviations at column c. -/
theorem v63_at (c : Fin 64) : val_main_v63 (F := Ideal) x a1 w b (ix1 c) = varR x a1 w b (ix2 0 c) := by
  rw [val_main_v63_apply, Ideal.hostDivf_def, val_main_v61_apply, val_main_cst_12_apply, val_main_v62_apply,
    val_main_cst_13_apply]
  have e : ∀ k : Fin 50000, idx_main_v61 (ix1 c) k = ix2 k c := fun k => funext fun a => by
    match a with
    | ⟨0, _⟩ => rfl
    | ⟨1, _⟩ => rfl
  simp only [e, val_main_v60_apply, val_main_v59_apply, v58_at, Ideal.mulf_def, Ideal.subf_def]
  rfl

/-- The reference's normalised, scaled, shifted and clipped entry (r, c). -/
theorem v79_at (r : Fin 50000) (c : Fin 64) :
    val_main_v79 (F := Ideal) x a1 w b g bt (ix2 r c)
      = Cert.Spec.act (val_main_v53 (F := Ideal) x a1 w b) (meanR x a1 w b) (varR x a1 w b) (row g) (row bt) r c := by
  rw [val_main_v79_apply, val_main_v78_apply, val_main_v75_apply, val_main_v72_apply, val_main_v66_apply,
    val_main_v71_apply, val_main_v70_apply, val_main_v69_apply, val_main_v68_apply, val_main_v67_apply,
    val_main_cst_14_apply, val_main_v74_apply, val_main_v73_apply, val_main_v77_apply, val_main_v76_apply,
    call0_at, v65_at]
  have e1 : idx_main_v70 (idx_main_v71 (ix2 r c)) = ix1 c := funext fun a => by
    match a with
    | ⟨0, _⟩ => rfl
  have e2 : idx_main_v73 (idx_main_v74 (ix2 r c)) = ix1 c := funext fun a => by
    match a with
    | ⟨0, _⟩ => rfl
  have e3 : idx_main_v76 (idx_main_v77 (ix2 r c)) = ix1 c := funext fun a => by
    match a with
    | ⟨0, _⟩ => rfl
  rw [e1, e2, e3, v63_at]
  simp only [Ideal.maximumf_def, Ideal.addf_def, Ideal.mulf_def, Ideal.subf_def, Ideal.hostUnary_rsqrt_def,
    Ideal.ofBits_def]
  rfl

/-- The reference's result is the closing stage of its pre-activation, its column mean and its mean squared deviation. -/
theorem v87_eq :
    val_main_v87 (F := Ideal) x a1 w b g bt
      = Cert.Spec.fin2 (val_main_v53 (F := Ideal) x a1 w b) (meanR x a1 w b) (varR x a1 w b) (row g) (row bt) := by
  funext i
  obtain ⟨r, c, rfl⟩ : ∃ (r : Fin 50000) (c : Fin 64), i = ix2 r c := ⟨i 0, i 1, eq_ix2 i⟩
  rw [val_main_v87_apply, Ideal.hostDivf_def, val_main_v86_apply, val_main_v85_apply, val_main_v84_apply,
    val_main_cst_16_apply, val_main_v83_apply, val_main_v82_apply, val_main_v81_apply, val_main_cst_15_apply, v79_at]
  have e : ∀ k : Fin 64, idx_main_v81 (idx_main_v82 (idx_main_v86 (ix2 r c))) k = ix2 r k := fun k => funext fun a => by
    match a with
    | ⟨0, _⟩ => rfl
    | ⟨1, _⟩ => rfl
  simp only [e, val_main_v80_apply, v79_at, Ideal.mulf_def, Ideal.maximumf_def, Ideal.hostUnary_sqrt_def,
    Ideal.ofBits_def]
  -- the row sum starts from the zero word, which is zero
  rw [show Ideal.ofBits .f32 0x00000000#32 = (0 : EReal) from Z_eq, zero_add]
  rfl

end Cert.ReferenceIdeal.RefVal

end
-- ==== Proof.Bridge.lean ====
/-
  The two programs compute one function of the arguments, at the ideal instance, when the float arguments are real.

  The index tables of the two programs are the same terms.  The degree is a count of ones plus one on either side of the
  sum.  The contributions along the edges are then the same array, and the pre-activations agree entry by entry: the
  kernel adds the per-node sum of contributions, counted from zero, to the scaled product row; the reference adds the
  same contributions onto the scaled product row itself.  The kernel's column accumulators over 25 blocks are the sums
  over all rows; its variance, the mean of the squares less the squared mean, is the reference's mean squared
  deviation because every entry of the pre-activation is real.
-/
import proofs.«133745_j34007551050423_1_alg».proof.Proof.KVal
import proofs.«133745_j34007551050423_1_alg».proof.Proof.RefVal
import Idealize.ShloMosaic.Lib.Pipeline.Value

set_option maxRecDepth 16384

noncomputable section

open scoped BigOperators

namespace Cert.Bridge

open Idealize.ShloMosaic Idealize.ShloMosaic.TcCoe Idealize.ShloMosaic.ValueIdx
open Cert.ReferenceIdeal.ReadP Cert.Algebra

variable (x : (⟨Cert.ReferenceIdeal.S50000x64, .f32⟩ : BufTy).Contents (Elt Ideal)) (a1 : (⟨Cert.ReferenceIdeal.S2x800000, .i32⟩ : BufTy).Contents (Elt Ideal))
  (w : (⟨Cert.ReferenceIdeal.S64x64, .f32⟩ : BufTy).Contents (Elt Ideal)) (b g bt : (⟨Cert.ReferenceIdeal.S64, .f32⟩ : BufTy).Contents (Elt Ideal))

/-! ## The index tables -/

theorem nrm_dst11 : Cert.KernelIdeal.HostV.nrm (F := Ideal) (Cert.KernelIdeal.HostV.dst a1) = val_main_v11 (F := Ideal) a1 := rfl
theorem nrm_dst49 : Cert.KernelIdeal.HostV.nrm (F := Ideal) (Cert.KernelIdeal.HostV.dst a1) = val_main_v49 (F := Ideal) a1 := rfl
theorem nrm_src24 : Cert.KernelIdeal.HostV.nrm (F := Ideal) (Cert.KernelIdeal.HostV.src a1) = val_main_v24 (F := Ideal) a1 := rfl

/-! ## The degree and its inverse root -/

theorem deg_eq : Cert.KernelIdeal.HostV.deg (F := Ideal) (Cert.KernelIdeal.HostV.dst a1) = val_main_v13 (F := Ideal) a1 := by
  funext i
  obtain ⟨p, rfl⟩ : ∃ p : Fin 50000, i = ix1 p := ⟨i 0, eq_ix1 i⟩
  unfold Cert.KernelIdeal.HostV.deg
  rw [addf_apply, Cert.LibSegmentSum.scatterAdd_seg1 _ rfl rfl rfl rfl, Cert.ReferenceIdeal.RefVal.v13_apply, nrm_dst11]
  show (Cert.Spec.Z + ∑ e ∈ _, Cert.Spec.OneF) + Cert.Spec.OneF = _
  rw [Z_eq, zero_add, add_comm]

theorem dinv_eq : Cert.KernelIdeal.HostV.dinv (F := Ideal) (Cert.KernelIdeal.HostV.dst a1) = val_main_v14 (F := Ideal) a1 := by
  unfold Cert.KernelIdeal.HostV.dinv val_main_v14
  rw [deg_eq]

/-! ## The contributions along the edges -/

theorem contrib_eq : Cert.KernelIdeal.HostV.contrib (F := Ideal) (val_main_v4 (F := Ideal) x w) (Cert.KernelIdeal.HostV.src a1) (Cert.KernelIdeal.HostV.dst a1)
    = val_main_v43 (F := Ideal) x a1 w := by
  unfold Cert.KernelIdeal.HostV.contrib
  rw [dinv_eq, nrm_src24, nrm_dst11]
  rfl

/-! ## The pre-activation -/

theorem d2_apply (p : Fin 50000) :
    Cert.KernelIdeal.HostV.d2 (F := Ideal) (Cert.KernelIdeal.HostV.dst a1) (ix2 p (0 : Fin 1))
      = val_main_v14 (F := Ideal) a1 (ix1 p) * val_main_v14 (F := Ideal) a1 (ix1 p) := by
  unfold Cert.KernelIdeal.HostV.d2
  rw [shapeCast_apply _ _ (ix2 p (0 : Fin 1)) (ix1 p)
    (by rw [Shape.rowMajor_val_two, Shape.rowMajor_val_one]; show p.val = p.val * 1 + 0; omega), mulf_apply, dinv_eq]

theorem row_apply (v : (⟨Cert.ReferenceIdeal.S64, .f32⟩ : BufTy).Contents (Elt Ideal)) (q : Fin 64) :
    Cert.KernelIdeal.HostV.row (F := Ideal) v (ix2 (0 : Fin 1) q) = v (ix1 q) := by
  unfold Cert.KernelIdeal.HostV.row
  rw [shapeCast_apply _ _ (ix2 (0 : Fin 1) q) (ix1 q)
    (by rw [Shape.rowMajor_val_two, Shape.rowMajor_val_one]; show q.val = 0 * 64 + q.val; omega)]

theorem agg_apply (h : (⟨Cert.ReferenceIdeal.S50000x64, .f32⟩ : BufTy).Contents (Elt Ideal))
    (v1 v3 : (⟨Cert.ReferenceIdeal.S800000, .i32⟩ : BufTy).Contents (Elt Ideal)) (p : Fin 50000) (q : Fin 64) :
    Cert.KernelIdeal.HostV.agg (F := Ideal) h v1 v3 (ix2 p q)
      = Cert.Spec.Z + ∑ e ∈ Finset.univ.filter (fun e : Fin 800000 => (Cert.KernelIdeal.HostV.nrm (F := Ideal) v3 (ix2 e 0)).toInt = (p.val : ℤ)),
          Cert.KernelIdeal.HostV.contrib (F := Ideal) h v1 v3 (ix2 e q) := by
  unfold Cert.KernelIdeal.HostV.agg
  rw [Cert.LibSegmentSum.scatterAdd_segRows _ rfl rfl rfl rfl]
  rfl

theorem pre_eq : Cert.KernelIdeal.KVal.preK x a1 w b = val_main_v53 (F := Ideal) x a1 w b := by
  funext i
  obtain ⟨p, q, rfl⟩ : ∃ (p : Fin 50000) (q : Fin 64), i = ix2 p q := ⟨i 0, i 1, eq_ix2 i⟩
  unfold Cert.KernelIdeal.KVal.preK Cert.Spec.pre
  rw [← Cert.ReferenceIdeal.RefVal.v4_eq, Cert.ReferenceIdeal.RefVal.v53_apply]
  show (val_main_v4 (F := Ideal) x w (ix2 p q) * Cert.KernelIdeal.HostV.d2 (F := Ideal) (Cert.KernelIdeal.HostV.dst a1) (ix2 p (0 : Fin 1))
      + Cert.KernelIdeal.HostV.agg (F := Ideal) (val_main_v4 (F := Ideal) x w) (Cert.KernelIdeal.HostV.src a1) (Cert.KernelIdeal.HostV.dst a1) (ix2 p q))
      + Cert.KernelIdeal.HostV.row (F := Ideal) b (ix2 (0 : Fin 1) q) = _
  rw [d2_apply, agg_apply, row_apply, contrib_eq, nrm_dst49, Z_eq, zero_add]

/-! ## The column mean and variance -/

theorem mean_apply (s : (⟨Cert.ReferenceIdeal.S1x64, .f32⟩ : BufTy).Contents (Elt Ideal)) (j : Cert.ReferenceIdeal.S1x64.Idx) :
    Cert.KernelIdeal.HostV.mean (F := Ideal) s j = Ideal.div (s j) Cert.Spec.NRows := rfl

theorem colsumB_apply (P : Cert.Spec.A2 50000 64) (j : (⟨2, ![1, 64]⟩ : Shape).Idx) :
    Cert.Spec.colsumB P j = Cert.Spec.Z + ∑ k : Fin 50000, P (ix2 k (j 1)) := by
  unfold Cert.Spec.colsumB
  exact congrArg (Cert.Spec.Z + ·) (sum_blocks (fun k => P (ix2 k (j 1))))

theorem colsumsqB_apply (P : Cert.Spec.A2 50000 64) (j : (⟨2, ![1, 64]⟩ : Shape).Idx) :
    Cert.Spec.colsumsqB P j = Cert.Spec.Z + ∑ k : Fin 50000, P (ix2 k (j 1)) * P (ix2 k (j 1)) := by
  unfold Cert.Spec.colsumsqB
  exact congrArg (Cert.Spec.Z + ·) (sum_blocks (fun k => P (ix2 k (j 1)) * P (ix2 k (j 1))))

theorem mean_eq : Cert.KernelIdeal.HostV.mean (F := Ideal) (Cert.Spec.colsumB (val_main_v53 (F := Ideal) x a1 w b))
    = Cert.ReferenceIdeal.RefVal.meanR x a1 w b := by
  funext j
  rw [mean_apply, colsumB_apply]
  rfl

theorem var_eq (hx : ∀ i, IsReal (x i)) (hw : ∀ i, IsReal (w i)) (hb : ∀ i, IsReal (b i)) :
    Cert.KernelIdeal.HostV.var (F := Ideal) (Cert.Spec.colsumB (val_main_v53 (F := Ideal) x a1 w b))
        (Cert.Spec.colsumsqB (val_main_v53 (F := Ideal) x a1 w b))
      = Cert.ReferenceIdeal.RefVal.varR x a1 w b := by
  funext j
  show Cert.KernelIdeal.HostV.mean (F := Ideal) (Cert.Spec.colsumsqB (val_main_v53 (F := Ideal) x a1 w b)) j
      - Cert.KernelIdeal.HostV.mean (F := Ideal) (Cert.Spec.colsumB (val_main_v53 (F := Ideal) x a1 w b)) j
        * Cert.KernelIdeal.HostV.mean (F := Ideal) (Cert.Spec.colsumB (val_main_v53 (F := Ideal) x a1 w b)) j = _
  rw [mean_apply, mean_apply, colsumB_apply, colsumsqB_apply]
  exact var_identity (fun k => val_main_v53 (F := Ideal) x a1 w b (ix2 k (j 1)))
    (fun k => Cert.ReferenceIdeal.RefVal.v53_real x a1 w b hx hw hb _)

/-! ## The scale and shift rows, and the result -/

theorem row_eq (v : (⟨Cert.ReferenceIdeal.S64, .f32⟩ : BufTy).Contents (Elt Ideal)) :
    Cert.KernelIdeal.HostV.row (F := Ideal) v = Cert.ReferenceIdeal.RefVal.row v := by
  funext j
  obtain ⟨z, q, rfl⟩ : ∃ (z : Fin 1) (q : Fin 64), j = ix2 z q := ⟨j 0, j 1, eq_ix2 j⟩
  obtain rfl : z = 0 := Subsingleton.elim _ _
  rw [row_apply]
  rfl

/-- With real float arguments the kernel's result is the reference's. -/
theorem out_eq (hx : ∀ i, IsReal (x i)) (hw : ∀ i, IsReal (w i)) (hb : ∀ i, IsReal (b i)) :
    Cert.KernelIdeal.KVal.outK x a1 w b g bt = val_main_v87 (F := Ideal) x a1 w b g bt := by
  unfold Cert.KernelIdeal.KVal.outK
  rw [pre_eq, mean_eq, var_eq x a1 w b hx hw hb, row_eq, row_eq, ← Cert.ReferenceIdeal.RefVal.v87_eq]

end Cert.Bridge

end
-- ==== Proof.lean ====
/-
  A graph-convolution layer — the product of the node features with a weight matrix, each node's row scaled by its
  inverse degree plus the degree-normalised rows of the nodes that point at it, a bias, batch normalisation over the
  nodes, the positive part, and each row divided by its Euclidean length — computed by three tiled kernels with host
  gathers and segment sums between them, against the same layer written with plain array operations.

  On the extended reals the two agree when the float arguments are real numbers: the kernel's matrix product by row
  blocks is the whole product; a degree counted from zero plus one is the degree counted from one; the segment sum of
  the neighbours' rows added to the scaled row is the segment sum onto that row; the column sums accumulated over 25
  blocks of rows are the sums over all rows; and the mean of the squares less the squared mean is the mean squared
  deviation, which is where realness is used.  The kernel reads nothing the ideal pass rewrote, so the idealisation claim
  is empty.  The frames of the two kernel programs are the generated ones; the reference's frame is its run with the
  result dropped.
-/
import proofs.«133745_j34007551050423_1_alg».proof.Defs
import proofs.«133745_j34007551050423_1_alg».proof.Proof.Gen.Kernel
import proofs.«133745_j34007551050423_1_alg».proof.Proof.Gen.Kernel.Skeleton
import proofs.«133745_j34007551050423_1_alg».proof.Proof.Gen.Kernel.Launch
import proofs.«133745_j34007551050423_1_alg».proof.Proof.Gen.Kernel.Points
import proofs.«133745_j34007551050423_1_alg».proof.Proof.Gen.Kernel.Frame
import proofs.«133745_j34007551050423_1_alg».proof.Proof.Gen.KernelIdeal
import proofs.«133745_j34007551050423_1_alg».proof.Proof.Gen.KernelIdeal.Skeleton
import proofs.«133745_j34007551050423_1_alg».proof.Proof.Gen.KernelIdeal.Launch
import proofs.«133745_j34007551050423_1_alg».proof.Proof.Gen.KernelIdeal.Points
import proofs.«133745_j34007551050423_1_alg».proof.Proof.Gen.KernelIdeal.Frame
import proofs.«133745_j34007551050423_1_alg».proof.Proof.Gen.ReferenceIdeal
import proofs.«133745_j34007551050423_1_alg».proof.Proof.Gen.Pre_finite_inputs
import proofs.«133745_j34007551050423_1_alg».proof.Proof.KRun
import proofs.«133745_j34007551050423_1_alg».proof.Proof.KVal
import proofs.«133745_j34007551050423_1_alg».proof.Proof.RefRun
import proofs.«133745_j34007551050423_1_alg».proof.Proof.RefRead
import proofs.«133745_j34007551050423_1_alg».proof.Proof.Finite
import proofs.«133745_j34007551050423_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on real arguments both programs end with the same result: the kernel's, read region by
    region, and the reference's, read operation by operation, are one function of the arguments. -/
theorem algebraic : Cert.algebraic_KernelIdeal_ReferenceIdeal := by
  intro m ρ m' ρ' hpre hagree
  refine ⟨fun c => Cert.KernelIdeal.KVal.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KVal.kval m ρ c), (h c).2⟩)
      (Cert.KernelIdeal.RunV.run_v62 (F := Ideal) m ρ)
  · refine (θ_run Cert.ReferenceIdeal.defs _ _).mono (fun r h c => ⟨?_, (h c).2⟩)
      (Cert.ReferenceIdeal.ValueP.run (F := Ideal) m' ρ')
    obtain ⟨h0, h2, h3, h4, h5⟩ := Cert.Finite.real_of_fn _ _ _ _ _ _ (hpre c)
    rw [(h c).1, Cert.ReferenceIdeal.ReadP.val_main_v87_eq, (hagree c).1, (hagree c).2.1, (hagree c).2.2.1,
      (hagree c).2.2.2.1, (hagree c).2.2.2.2.1, (hagree c).2.2.2.2.2]
    exact (Cert.Bridge.out_eq _ _ _ _ _ _ h0 h2 h3).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
